-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2 : Shape := ⟨2, ![8192, 2]⟩
abbrev S8x1024x1024 : Shape := ⟨3, ![8, 1024, 1024]⟩
abbrev S8x1024x512 : Shape := ⟨3, ![8, 1024, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024x512 : S_.BroadcastsInDim S8x1024x512 (![] : Fin 0 → Fin S8x1024x512.rank)
  reducesTo_S8x1024x512_S_d0_1_2 : S8x1024x512.ReducesTo [0, 1, 2] S_

variable [Facts]

def fn_part1 {F : FTy → Type} [FloatOps F] (main_v13 : IVec S_ 1) (main_v16 : IVec S8x1024x512 1) : IVec S_ 1 :=
  let main_c_5 : IVec S_ 1 := constantI S_ 1 1#1
  let main_v17 : IVec S_ 1 := (fun x v => Host.reduce IntOp.andi x v reducesTo_S8x1024x512_S_d0_1_2 h_S_) main_v16 main_c_5
  let main_v18 : IVec S_ 1 := andi main_v13 main_v17
  main_v18

def fn {F : FTy → Type} [FloatOps F] (main_arg0 : FVec F S8192x1024 .f32) (main_arg1 : IVec S8192x2 32) (main_arg2 : FVec F S8192x2 .f32) (main_arg3 : FVec F S8x1024x1024 .f32) (main_arg4 : FVec F S8x1024x512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2 .f32 := Host.absf main_arg2
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S8x1024x1024 .f32 := Host.absf main_arg3
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S8x1024x512 .f32 := Host.absf main_arg4
  let main_cst_4 : FVec F S_ .f32 := constant S_ .f32 0x7F800000#32
  let main_v15 : FVec F S8x1024x512 .f32 := broadcastInDim S8x1024x512 ![] bcast_S_S8x1024x512 main_cst_4
  let main_v16 : IVec S8x1024x512 1 := cmpf .olt main_v14 main_v15
  fn_part1 (F := F) main_v13 main_v16
-- ==== Kernel.lean ====
abbrev S8192x1024 : Shape := ⟨2, ![8192, 1024]⟩
abbrev S8192x2 : Shape := ⟨2, ![8192, 2]⟩
abbrev S8x1024x1024 : Shape := ⟨3, ![8, 1024, 1024]⟩
abbrev S8x1024x512 : Shape := ⟨3, ![8, 1024, 512]⟩
abbrev S512x1024 : Shape := ⟨2, ![512, 1024]⟩
abbrev S1x1024x1024 : Shape := ⟨3, ![1, 1024, 1024]⟩
abbrev S1x1024x512 : Shape := ⟨3, ![1, 1024, 512]⟩
abbrev S512x2 : Shape := ⟨2, ![512, 2]⟩
abbrev S1024x1024 : Shape := ⟨2, ![1024, 1024]⟩
abbrev S512x512 : Shape := ⟨2, ![512, 512]⟩
abbrev S1024x512 : Shape := ⟨2, ![1024, 512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x2, .i32⟩
  | .hbm, ⟨2, _⟩ => ⟨S8192x2, .f32⟩
  | .hbm, ⟨3, _⟩ => ⟨S8x1024x1024, .f32⟩
  | .hbm, ⟨4, _⟩ => ⟨S8x1024x512, .f32⟩
  | .hbm, ⟨5, _⟩ => ⟨S8192x1024, .f32⟩
  | .local _ .vmem, ⟨0, _⟩ => ⟨S512x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x512, .f32⟩
  | .local _ .vmem, ⟨4, _⟩ => ⟨S1x1024x512, .f32⟩
  | .local _ .vmem, ⟨5, _⟩ => ⟨S512x2, .i32⟩
  | .local _ .vmem, ⟨6, _⟩ => ⟨S512x2, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S512x2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S512x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  slices_S512x1024_o0_0_S512x512 : S512x1024.Slices ![0, 0] S512x512
  slices_S512x1024_o0_512_S512x512 : S512x1024.Slices ![0, 512] S512x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x2_S512x2_0_0 : ∀ a, (![0, 0] : Fin 2 → Nat) a + S512x2.size a ≤ S512x2.size a
  h_S512x2 : 0 < S512x2.numel
  slices_S512x2_o0_0_S512x1 : S512x2.Slices ![0, 0] S512x1
  slices_S512x2_o0_1_S512x1 : S512x2.Slices ![0, 1] S512x1
  shapeCasts_S512x1024_S512x1024 : S512x1024.ShapeCasts S512x1024
  broadcasts_S512x1_S512x1024 : S512x1.Broadcasts S512x1024
  dot_S512x1024_S1024x1024_S512x1024_1_1_0_0_n_n_wf : DotDims.WF S512x1024 S1024x1024 S512x1024 [1] [1] [0] [0] [] []
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x1024.size a
  hwx0_1 : ∀ i : grid0.Coords, EltTy.bits .f32 = 32 ∨ (Rect.block (s := S8x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S8x1024x512.size a
  hwx0_2 : ∀ i : grid0.Coords, EltTy.bits .f32 = 32 ∨ (Rect.block (s := S8x1024x512) S1x1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2.size a ≤ S8192x2.size a
  hwx0_3 : ∀ i : grid0.Coords, EltTy.bits .i32 = 32 ∨ (Rect.block (s := S8192x2) S512x2.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2.size a ≤ S8192x2.size a
  hwx0_4 : ∀ i : grid0.Coords, EltTy.bits .f32 = 32 ∨ (Rect.block (s := S8192x2) S512x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_arg0) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x1024.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x2 : Shape := ⟨2, ![8192, 2]⟩
abbrev S8x1024x1024 : Shape := ⟨3, ![8, 1024, 1024]⟩
abbrev S8x1024x512 : Shape := ⟨3, ![8, 1024, 512]⟩
abbrev S_ : Shape := ⟨0, ![]⟩
abbrev S8192 : Shape := ⟨1, ![8192]⟩
abbrev S1x1024x1024 : Shape := ⟨3, ![1, 1024, 1024]⟩
abbrev S1024x1024 : Shape := ⟨2, ![1024, 1024]⟩
abbrev S8192x512 : Shape := ⟨2, ![8192, 512]⟩
abbrev S1x1024x512 : Shape := ⟨3, ![1, 1024, 512]⟩
abbrev S1024x512 : Shape := ⟨2, ![1024, 512]⟩
abbrev S512x1024 : Shape := ⟨2, ![512, 1024]⟩
abbrev S8192x1 : Shape := ⟨2, ![8192, 1]⟩

abbrev nBuf : Space → Nat
  | .hbm => 271
  | .vmem => 0
  | .smem => 0
  | _ => 0

abbrev hbmTy0_0 (i : Nat) : BufTy := match i % 128 with
  | 0 => ⟨S8192x1024, .f32⟩
  | 1 => ⟨S8192x2, .i32⟩
  | 2 => ⟨S8192x2, .f32⟩
  | 3 => ⟨S8x1024x1024, .f32⟩
  | 4 => ⟨S8x1024x512, .f32⟩
  | 5 => ⟨S_, .f32⟩
  | 6 => ⟨S8192x1024, .f32⟩
  | 7 => ⟨S_, .i32⟩
  | 8 => ⟨S8192x2, .i32⟩
  | 9 => ⟨S8192x2, .i1⟩
  | 10 => ⟨S_, .f32⟩
  | 11 => ⟨S_, .f32⟩
  | 12 => ⟨S8192x2, .f32⟩
  | 13 => ⟨S8192x2, .f32⟩
  | 14 => ⟨S_, .f32⟩
  | 15 => ⟨S8192, .f32⟩
  | 16 => ⟨S1x1024x1024, .f32⟩
  | 17 => ⟨S1024x1024, .f32⟩
  | 18 => ⟨S1024x1024, .f32⟩
  | 19 => ⟨S8192x1024, .f32⟩
  | 20 => ⟨S8192x512, .f32⟩
  | 21 => ⟨S8192x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S8192x512, .f32⟩
  | 31 => ⟨S8192x512, .f32⟩
  | 32 => ⟨S1x1024x512, .f32⟩
  | 33 => ⟨S1024x512, .f32⟩
  | 34 => ⟨S512x1024, .f32⟩
  | 35 => ⟨S8192x1024, .f32⟩
  | 36 => ⟨S8192x1, .f32⟩
  | 37 => ⟨S8192x1024, .f32⟩
  | 38 => ⟨S8192x1024, .f32⟩
  | 39 => ⟨S8192x1024, .f32⟩
  | 40 => ⟨S_, .i32⟩
  | 41 => ⟨S8192x2, .i32⟩
  | 42 => ⟨S8192x2, .i1⟩
  | 43 => ⟨S_, .f32⟩
  | 44 => ⟨S_, .f32⟩
  | 45 => ⟨S8192x2, .f32⟩
  | 46 => ⟨S8192x2, .f32⟩
  | 47 => ⟨S_, .f32⟩
  | 48 => ⟨S8192, .f32⟩
  | 49 => ⟨S1x1024x1024, .f32⟩
  | 50 => ⟨S1024x1024, .f32⟩
  | 51 => ⟨S1024x1024, .f32⟩
  | 52 => ⟨S8192x1024, .f32⟩
  | 53 => ⟨S8192x512, .f32⟩
  | 54 => ⟨S8192x512, .f32⟩
  | 55 => ⟨S8192x512, .f32⟩
  | 56 => ⟨S8192x512, .f32⟩
  | 57 => ⟨S_, .f32⟩
  | 58 => ⟨S8192x512, .f32⟩
  | 59 => ⟨S8192x512, .f32⟩
  | 60 => ⟨S_, .f32⟩
  | 61 => ⟨S8192x512, .f32⟩
  | 62 => ⟨S8192x512, .f32⟩
  | 63 => ⟨S8192x512, .f32⟩
  | 64 => ⟨S8192x512, .f32⟩
  | 65 => ⟨S1x1024x512, .f32⟩
  | 66 => ⟨S1024x512, .f32⟩
  | 67 => ⟨S512x1024, .f32⟩
  | 68 => ⟨S8192x1024, .f32⟩
  | 69 => ⟨S8192x1, .f32⟩
  | 70 => ⟨S8192x1024, .f32⟩
  | 71 => ⟨S8192x1024, .f32⟩
  | 72 => ⟨S8192x1024, .f32⟩
  | 73 => ⟨S_, .i32⟩
  | 74 => ⟨S8192x2, .i32⟩
  | 75 => ⟨S8192x2, .i1⟩
  | 76 => ⟨S_, .f32⟩
  | 77 => ⟨S_, .f32⟩
  | 78 => ⟨S8192x2, .f32⟩
  | 79 => ⟨S8192x2, .f32⟩
  | 80 => ⟨S_, .f32⟩
  | 81 => ⟨S8192, .f32⟩
  | 82 => ⟨S1x1024x1024, .f32⟩
  | 83 => ⟨S1024x1024, .f32⟩
  | 84 => ⟨S1024x1024, .f32⟩
  | 85 => ⟨S8192x1024, .f32⟩
  | 86 => ⟨S8192x512, .f32⟩
  | 87 => ⟨S8192x512, .f32⟩
  | 88 => ⟨S8192x512, .f32⟩
  | 89 => ⟨S8192x512, .f32⟩
  | 90 => ⟨S_, .f32⟩
  | 91 => ⟨S8192x512, .f32⟩
  | 92 => ⟨S8192x512, .f32⟩
  | 93 => ⟨S_, .f32⟩
  | 94 => ⟨S8192x512, .f32⟩
  | 95 => ⟨S8192x512, .f32⟩
  | 96 => ⟨S8192x512, .f32⟩
  | 97 => ⟨S8192x512, .f32⟩
  | 98 => ⟨S1x1024x512, .f32⟩
  | 99 => ⟨S1024x512, .f32⟩
  | 100 => ⟨S512x1024, .f32⟩
  | 101 => ⟨S8192x1024, .f32⟩
  | 102 => ⟨S8192x1, .f32⟩
  | 103 => ⟨S8192x1024, .f32⟩
  | 104 => ⟨S8192x1024, .f32⟩
  | 105 => ⟨S8192x1024, .f32⟩
  | 106 => ⟨S_, .i32⟩
  | 107 => ⟨S8192x2, .i32⟩
  | 108 => ⟨S8192x2, .i1⟩
  | 109 => ⟨S_, .f32⟩
  | 110 => ⟨S_, .f32⟩
  | 111 => ⟨S8192x2, .f32⟩
  | 112 => ⟨S8192x2, .f32⟩
  | 113 => ⟨S_, .f32⟩
  | 114 => ⟨S8192, .f32⟩
  | 115 => ⟨S1x1024x1024, .f32⟩
  | 116 => ⟨S1024x1024, .f32⟩
  | 117 => ⟨S1024x1024, .f32⟩
  | 118 => ⟨S8192x1024, .f32⟩
  | 119 => ⟨S8192x512, .f32⟩
  | 120 => ⟨S8192x512, .f32⟩
  | 121 => ⟨S8192x512, .f32⟩
  | 122 => ⟨S8192x512, .f32⟩
  | 123 => ⟨S_, .f32⟩
  | 124 => ⟨S8192x512, .f32⟩
  | 125 => ⟨S8192x512, .f32⟩
  | 126 => ⟨S_, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x512, .f32⟩
  | 3 => ⟨S1x1024x512, .f32⟩
  | 4 => ⟨S1024x512, .f32⟩
  | 5 => ⟨S512x1024, .f32⟩
  | 6 => ⟨S8192x1024, .f32⟩
  | 7 => ⟨S8192x1, .f32⟩
  | 8 => ⟨S8192x1024, .f32⟩
  | 9 => ⟨S8192x1024, .f32⟩
  | 10 => ⟨S8192x1024, .f32⟩
  | 11 => ⟨S_, .i32⟩
  | 12 => ⟨S8192x2, .i32⟩
  | 13 => ⟨S8192x2, .i1⟩
  | 14 => ⟨S_, .f32⟩
  | 15 => ⟨S_, .f32⟩
  | 16 => ⟨S8192x2, .f32⟩
  | 17 => ⟨S8192x2, .f32⟩
  | 18 => ⟨S_, .f32⟩
  | 19 => ⟨S8192, .f32⟩
  | 20 => ⟨S1x1024x1024, .f32⟩
  | 21 => ⟨S1024x1024, .f32⟩
  | 22 => ⟨S1024x1024, .f32⟩
  | 23 => ⟨S8192x1024, .f32⟩
  | 24 => ⟨S8192x512, .f32⟩
  | 25 => ⟨S8192x512, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S8192x512, .f32⟩
  | 35 => ⟨S8192x512, .f32⟩
  | 36 => ⟨S1x1024x512, .f32⟩
  | 37 => ⟨S1024x512, .f32⟩
  | 38 => ⟨S512x1024, .f32⟩
  | 39 => ⟨S8192x1024, .f32⟩
  | 40 => ⟨S8192x1, .f32⟩
  | 41 => ⟨S8192x1024, .f32⟩
  | 42 => ⟨S8192x1024, .f32⟩
  | 43 => ⟨S8192x1024, .f32⟩
  | 44 => ⟨S_, .i32⟩
  | 45 => ⟨S8192x2, .i32⟩
  | 46 => ⟨S8192x2, .i1⟩
  | 47 => ⟨S_, .f32⟩
  | 48 => ⟨S_, .f32⟩
  | 49 => ⟨S8192x2, .f32⟩
  | 50 => ⟨S8192x2, .f32⟩
  | 51 => ⟨S_, .f32⟩
  | 52 => ⟨S8192, .f32⟩
  | 53 => ⟨S1x1024x1024, .f32⟩
  | 54 => ⟨S1024x1024, .f32⟩
  | 55 => ⟨S1024x1024, .f32⟩
  | 56 => ⟨S8192x1024, .f32⟩
  | 57 => ⟨S8192x512, .f32⟩
  | 58 => ⟨S8192x512, .f32⟩
  | 59 => ⟨S8192x512, .f32⟩
  | 60 => ⟨S8192x512, .f32⟩
  | 61 => ⟨S_, .f32⟩
  | 62 => ⟨S8192x512, .f32⟩
  | 63 => ⟨S8192x512, .f32⟩
  | 64 => ⟨S_, .f32⟩
  | 65 => ⟨S8192x512, .f32⟩
  | 66 => ⟨S8192x512, .f32⟩
  | 67 => ⟨S8192x512, .f32⟩
  | 68 => ⟨S8192x512, .f32⟩
  | 69 => ⟨S1x1024x512, .f32⟩
  | 70 => ⟨S1024x512, .f32⟩
  | 71 => ⟨S512x1024, .f32⟩
  | 72 => ⟨S8192x1024, .f32⟩
  | 73 => ⟨S8192x1, .f32⟩
  | 74 => ⟨S8192x1024, .f32⟩
  | 75 => ⟨S8192x1024, .f32⟩
  | 76 => ⟨S8192x1024, .f32⟩
  | 77 => ⟨S_, .i32⟩
  | 78 => ⟨S8192x2, .i32⟩
  | 79 => ⟨S8192x2, .i1⟩
  | 80 => ⟨S_, .f32⟩
  | 81 => ⟨S_, .f32⟩
  | 82 => ⟨S8192x2, .f32⟩
  | 83 => ⟨S8192x2, .f32⟩
  | 84 => ⟨S_, .f32⟩
  | 85 => ⟨S8192, .f32⟩
  | 86 => ⟨S1x1024x1024, .f32⟩
  | 87 => ⟨S1024x1024, .f32⟩
  | 88 => ⟨S1024x1024, .f32⟩
  | 89 => ⟨S8192x1024, .f32⟩
  | 90 => ⟨S8192x512, .f32⟩
  | 91 => ⟨S8192x512, .f32⟩
  | 92 => ⟨S8192x512, .f32⟩
  | 93 => ⟨S8192x512, .f32⟩
  | 94 => ⟨S_, .f32⟩
  | 95 => ⟨S8192x512, .f32⟩
  | 96 => ⟨S8192x512, .f32⟩
  | 97 => ⟨S_, .f32⟩
  | 98 => ⟨S8192x512, .f32⟩
  | 99 => ⟨S8192x512, .f32⟩
  | 100 => ⟨S8192x512, .f32⟩
  | 101 => ⟨S8192x512, .f32⟩
  | 102 => ⟨S1x1024x512, .f32⟩
  | 103 => ⟨S1024x512, .f32⟩
  | 104 => ⟨S512x1024, .f32⟩
  | 105 => ⟨S8192x1024, .f32⟩
  | 106 => ⟨S8192x1, .f32⟩
  | 107 => ⟨S8192x1024, .f32⟩
  | 108 => ⟨S8192x1024, .f32⟩
  | 109 => ⟨S8192x1024, .f32⟩
  | 110 => ⟨S_, .i32⟩
  | 111 => ⟨S8192x2, .i32⟩
  | 112 => ⟨S8192x2, .i1⟩
  | 113 => ⟨S_, .f32⟩
  | 114 => ⟨S_, .f32⟩
  | 115 => ⟨S8192x2, .f32⟩
  | 116 => ⟨S8192x2, .f32⟩
  | 117 => ⟨S_, .f32⟩
  | 118 => ⟨S8192, .f32⟩
  | 119 => ⟨S1x1024x1024, .f32⟩
  | 120 => ⟨S1024x1024, .f32⟩
  | 121 => ⟨S1024x1024, .f32⟩
  | 122 => ⟨S8192x1024, .f32⟩
  | 123 => ⟨S8192x512, .f32⟩
  | 124 => ⟨S8192x512, .f32⟩
  | 125 => ⟨S8192x512, .f32⟩
  | 126 => ⟨S8192x512, .f32⟩
  | 127 => ⟨S_, .f32⟩
  | _ => ⟨S8192x1024, .f32⟩

abbrev hbmTy0_2 (i : Nat) : BufTy := match i % 128 with
  | 0 => ⟨S8192x512, .f32⟩
  | 1 => ⟨S8192x512, .f32⟩
  | 2 => ⟨S_, .f32⟩
  | 3 => ⟨S8192x512, .f32⟩
  | 4 => ⟨S8192x512, .f32⟩
  | 5 => ⟨S8192x512, .f32⟩
  | 6 => ⟨S8192x512, .f32⟩
  | 7 => ⟨S1x1024x512, .f32⟩
  | 8 => ⟨S1024x512, .f32⟩
  | 9 => ⟨S512x1024, .f32⟩
  | 10 => ⟨S8192x1024, .f32⟩
  | 11 => ⟨S8192x1, .f32⟩
  | 12 => ⟨S8192x1024, .f32⟩
  | 13 => ⟨S8192x1024, .f32⟩
  | 14 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_call2_v0 : Ref sig .tc := ⟨.hbm, 44, rfl⟩
abbrev main_call2_v1 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call3_v0 : Ref sig .tc := ⟨.hbm, 55, rfl⟩
abbrev main_call3_v1 : Ref sig .tc := ⟨.hbm, 56, rfl⟩
abbrev main_call3_cst : Ref sig .tc := ⟨.hbm, 57, rfl⟩
abbrev main_call3_v2 : Ref sig .tc := ⟨.hbm, 58, rfl⟩
abbrev main_call3_v3 : Ref sig .tc := ⟨.hbm, 59, rfl⟩
abbrev main_call3_cst_0 : Ref sig .tc := ⟨.hbm, 60, rfl⟩
abbrev main_call3_v4 : Ref sig .tc := ⟨.hbm, 61, rfl⟩
abbrev main_call3_v5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_5 : Ref sig .tc := ⟨.hbm, 73, rfl⟩
abbrev main_v41 : Ref sig .tc := ⟨.hbm, 74, rfl⟩
abbrev main_v42 : Ref sig .tc := ⟨.hbm, 75, rfl⟩
abbrev main_cst_6 : Ref sig .tc := ⟨.hbm, 76, rfl⟩
abbrev main_call4_v0 : Ref sig .tc := ⟨.hbm, 77, rfl⟩
abbrev main_call4_v1 : Ref sig .tc := ⟨.hbm, 78, rfl⟩
abbrev main_v43 : Ref sig .tc := ⟨.hbm, 79, rfl⟩
abbrev main_cst_7 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_call5_v0 : Ref sig .tc := ⟨.hbm, 88, rfl⟩
abbrev main_call5_v1 : Ref sig .tc := ⟨.hbm, 89, rfl⟩
abbrev main_call5_cst : Ref sig .tc := ⟨.hbm, 90, rfl⟩
abbrev main_call5_v2 : Ref sig .tc := ⟨.hbm, 91, rfl⟩
abbrev main_call5_v3 : Ref sig .tc := ⟨.hbm, 92, rfl⟩
abbrev main_call5_cst_0 : Ref sig .tc := ⟨.hbm, 93, rfl⟩
abbrev main_call5_v4 : Ref sig .tc := ⟨.hbm, 94, rfl⟩
abbrev main_call5_v5 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_c_8 : Ref sig .tc := ⟨.hbm, 106, rfl⟩
abbrev main_v61 : Ref sig .tc := ⟨.hbm, 107, rfl⟩
abbrev main_v62 : Ref sig .tc := ⟨.hbm, 108, rfl⟩
abbrev main_cst_9 : Ref sig .tc := ⟨.hbm, 109, rfl⟩
abbrev main_call6_v0 : Ref sig .tc := ⟨.hbm, 110, rfl⟩
abbrev main_call6_v1 : Ref sig .tc := ⟨.hbm, 111, rfl⟩
abbrev main_v63 : Ref sig .tc := ⟨.hbm, 112, rfl⟩
abbrev main_cst_10 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_call7_v0 : Ref sig .tc := ⟨.hbm, 121, rfl⟩
abbrev main_call7_v1 : Ref sig .tc := ⟨.hbm, 122, rfl⟩
abbrev main_call7_cst : Ref sig .tc := ⟨.hbm, 123, rfl⟩
abbrev main_call7_v2 : Ref sig .tc := ⟨.hbm, 124, rfl⟩
abbrev main_call7_v3 : Ref sig .tc := ⟨.hbm, 125, rfl⟩
abbrev main_call7_cst_0 : Ref sig .tc := ⟨.hbm, 126, rfl⟩
abbrev main_call7_v4 : Ref sig .tc := ⟨.hbm, 127, rfl⟩
abbrev main_call7_v5 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_c_11 : Ref sig .tc := ⟨.hbm, 139, rfl⟩
abbrev main_v81 : Ref sig .tc := ⟨.hbm, 140, rfl⟩
abbrev main_v82 : Ref sig .tc := ⟨.hbm, 141, rfl⟩
abbrev main_cst_12 : Ref sig .tc := ⟨.hbm, 142, rfl⟩
abbrev main_call8_v0 : Ref sig .tc := ⟨.hbm, 143, rfl⟩
abbrev main_call8_v1 : Ref sig .tc := ⟨.hbm, 144, rfl⟩
abbrev main_v83 : Ref sig .tc := ⟨.hbm, 145, rfl⟩
abbrev main_cst_13 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_call9_v0 : Ref sig .tc := ⟨.hbm, 154, rfl⟩
abbrev main_call9_v1 : Ref sig .tc := ⟨.hbm, 155, rfl⟩
abbrev main_call9_cst : Ref sig .tc := ⟨.hbm, 156, rfl⟩
abbrev main_call9_v2 : Ref sig .tc := ⟨.hbm, 157, rfl⟩
abbrev main_call9_v3 : Ref sig .tc := ⟨.hbm, 158, rfl⟩
abbrev main_call9_cst_0 : Ref sig .tc := ⟨.hbm, 159, rfl⟩
abbrev main_call9_v4 : Ref sig .tc := ⟨.hbm, 160, rfl⟩
abbrev main_call9_v5 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_c_14 : Ref sig .tc := ⟨.hbm, 172, rfl⟩
abbrev main_v101 : Ref sig .tc := ⟨.hbm, 173, rfl⟩
abbrev main_v102 : Ref sig .tc := ⟨.hbm, 174, rfl⟩
abbrev main_cst_15 : Ref sig .tc := ⟨.hbm, 175, rfl⟩
abbrev main_call10_v0 : Ref sig .tc := ⟨.hbm, 176, rfl⟩
abbrev main_call10_v1 : Ref sig .tc := ⟨.hbm, 177, rfl⟩
abbrev main_v103 : Ref sig .tc := ⟨.hbm, 178, rfl⟩
abbrev main_cst_16 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_call11_v0 : Ref sig .tc := ⟨.hbm, 187, rfl⟩
abbrev main_call11_v1 : Ref sig .tc := ⟨.hbm, 188, rfl⟩
abbrev main_call11_cst : Ref sig .tc := ⟨.hbm, 189, rfl⟩
abbrev main_call11_v2 : Ref sig .tc := ⟨.hbm, 190, rfl⟩
abbrev main_call11_v3 : Ref sig .tc := ⟨.hbm, 191, rfl⟩
abbrev main_call11_cst_0 : Ref sig .tc := ⟨.hbm, 192, rfl⟩
abbrev main_call11_v4 : Ref sig .tc := ⟨.hbm, 193, rfl⟩
abbrev main_call11_v5 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_c_17 : Ref sig .tc := ⟨.hbm, 205, rfl⟩
abbrev main_v121 : Ref sig .tc := ⟨.hbm, 206, rfl⟩
abbrev main_v122 : Ref sig .tc := ⟨.hbm, 207, rfl⟩
abbrev main_cst_18 : Ref sig .tc := ⟨.hbm, 208, rfl⟩
abbrev main_call12_v0 : Ref sig .tc := ⟨.hbm, 209, rfl⟩
abbrev main_call12_v1 : Ref sig .tc := ⟨.hbm, 210, rfl⟩
abbrev main_v123 : Ref sig .tc := ⟨.hbm, 211, rfl⟩
abbrev main_cst_19 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_call13_v0 : Ref sig .tc := ⟨.hbm, 220, rfl⟩
abbrev main_call13_v1 : Ref sig .tc := ⟨.hbm, 221, rfl⟩
abbrev main_call13_cst : Ref sig .tc := ⟨.hbm, 222, rfl⟩
abbrev main_call13_v2 : Ref sig .tc := ⟨.hbm, 223, rfl⟩
abbrev main_call13_v3 : Ref sig .tc := ⟨.hbm, 224, rfl⟩
abbrev main_call13_cst_0 : Ref sig .tc := ⟨.hbm, 225, rfl⟩
abbrev main_call13_v4 : Ref sig .tc := ⟨.hbm, 226, rfl⟩
abbrev main_call13_v5 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_c_20 : Ref sig .tc := ⟨.hbm, 238, rfl⟩
abbrev main_v141 : Ref sig .tc := ⟨.hbm, 239, rfl⟩
abbrev main_v142 : Ref sig .tc := ⟨.hbm, 240, rfl⟩
abbrev main_cst_21 : Ref sig .tc := ⟨.hbm, 241, rfl⟩
abbrev main_call14_v0 : Ref sig .tc := ⟨.hbm, 242, rfl⟩
abbrev main_call14_v1 : Ref sig .tc := ⟨.hbm, 243, rfl⟩
abbrev main_v143 : Ref sig .tc := ⟨.hbm, 244, rfl⟩
abbrev main_cst_22 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_call15_v0 : Ref sig .tc := ⟨.hbm, 253, rfl⟩
abbrev main_call15_v1 : Ref sig .tc := ⟨.hbm, 254, rfl⟩
abbrev main_call15_cst : Ref sig .tc := ⟨.hbm, 255, rfl⟩
abbrev main_call15_v2 : Ref sig .tc := ⟨.hbm, 256, rfl⟩
abbrev main_call15_v3 : Ref sig .tc := ⟨.hbm, 257, rfl⟩
abbrev main_call15_cst_0 : Ref sig .tc := ⟨.hbm, 258, rfl⟩
abbrev main_call15_v4 : Ref sig .tc := ⟨.hbm, 259, rfl⟩
abbrev main_call15_v5 : Ref sig .tc := ⟨.hbm, 260, rfl⟩
abbrev main_v151 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_v155 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  bcast_S_S8192x2 : S_.BroadcastsInDim S8192x2 (![] : Fin 0 → Fin S8192x2.rank)
  reducesTo_S8192x2_S8192_d1 : S8192x2.ReducesTo [1] S8192
  h_S_ : 0 < S_.numel
  slices_S8x1024x1024_S1x1024x1024_0_0_0 : S8x1024x1024.Slices ![0, 0, 0] S1x1024x1024
  shapeCasts_S1x1024x1024_S1024x1024 : S1x1024x1024.ShapeCasts S1024x1024
  transposes_S1024x1024_S1024x1024_1_0 : S1024x1024.Transposes [1, 0] S1024x1024
  slices_S8192x1024_S8192x512_0_0 : S8192x1024.Slices ![0, 0] S8192x512
  slices_S8192x1024_S8192x512_0_512 : S8192x1024.Slices ![0, 512] S8192x512
  bcast_S_S8192x512 : S_.BroadcastsInDim S8192x512 (![] : Fin 0 → Fin S8192x512.rank)
  slices_S8x1024x512_S1x1024x512_0_0_0 : S8x1024x512.Slices ![0, 0, 0] S1x1024x512
  shapeCasts_S1x1024x512_S1024x512 : S1x1024x512.ShapeCasts S1024x512
  transposes_S1024x512_S512x1024_1_0 : S1024x512.Transposes [1, 0] S512x1024
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  slices_S8x1024x1024_S1x1024x1024_1_0_0 : S8x1024x1024.Slices ![1, 0, 0] S1x1024x1024
  slices_S8x1024x512_S1x1024x512_1_0_0 : S8x1024x512.Slices ![1, 0, 0] S1x1024x512
  slices_S8x1024x1024_S1x1024x1024_2_0_0 : S8x1024x1024.Slices ![2, 0, 0] S1x1024x1024
  slices_S8x1024x512_S1x1024x512_2_0_0 : S8x1024x512.Slices ![2, 0, 0] S1x1024x512
  slices_S8x1024x1024_S1x1024x1024_3_0_0 : S8x1024x1024.Slices ![3, 0, 0] S1x1024x1024
  slices_S8x1024x512_S1x1024x512_3_0_0 : S8x1024x512.Slices ![3, 0, 0] S1x1024x512
  slices_S8x1024x1024_S1x1024x1024_4_0_0 : S8x1024x1024.Slices ![4, 0, 0] S1x1024x1024
  slices_S8x1024x512_S1x1024x512_4_0_0 : S8x1024x512.Slices ![4, 0, 0] S1x1024x512
  slices_S8x1024x1024_S1x1024x1024_5_0_0 : S8x1024x1024.Slices ![5, 0, 0] S1x1024x1024
  slices_S8x1024x512_S1x1024x512_5_0_0 : S8x1024x512.Slices ![5, 0, 0] S1x1024x512
  slices_S8x1024x1024_S1x1024x1024_6_0_0 : S8x1024x1024.Slices ![6, 0, 0] S1x1024x1024
  slices_S8x1024x512_S1x1024x512_6_0_0 : S8x1024x512.Slices ![6, 0, 0] S1x1024x512
  slices_S8x1024x1024_S1x1024x1024_7_0_0 : S8x1024x1024.Slices ![7, 0, 0] S1x1024x1024
  slices_S8x1024x512_S1x1024x512_7_0_0 : S8x1024x512.Slices ![7, 0, 0] S1x1024x512
  dot_S8192x1024_S1024x1024_S8192x1024_1_0_0_1_n_n_wf : DotDims.WF S8192x1024 S1024x1024 S8192x1024 [1] [0] [0] [1] [] []
  dot_S8192x512_S512x1024_S8192x1024_1_0_0_1_n_n_wf : DotDims.WF S8192x512 S512x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf

class Facts : Prop extends Facts₀ where

variable [Facts]
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.LibDotRead.lean ====
/-
  Two matrix products read at an index, for any sizes, at the ideal values.

  * A product [M, K] × [N, K] whose right operand is contracted on its LAST axis (the product with the transposed
    matrix, without the transpose being formed), into a zero accumulator: entry (p, q) is Σ over k < K of
    A(p, k) · B(q, k).
  * The host's plain product [M, K] × [K, N] (left operand contracted on its second axis, right on its first, no batch
    axes): entry (p, q) is Σ over k < K of A(p, k) · B(k, q).

  Both are sums over Fin K, so that two programs' contractions over the same extent meet term by term.
-/
import proofs.«119025_j42511586295841_1_alg».proof.Proof.LibOuterDot

noncomputable section

open scoped BigOperators

namespace Cert.LibDotRead

open Idealize.ShloMosaic Idealize.ShloMosaic.ValueIdx

/-- A product into the zero accumulator whose right operand is indexed (column, contraction), given where the dimension
    numbers send the indices: the sum over k < K of A(p, k) · B(q, k). -/
theorem matmulT_zero_ix2_of {M K N : ℕ} {φ₁ φ₂ : FTy}
    (d : DotDims ⟨2, ![M, K]⟩ ⟨2, ![N, K]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (i 1).val) (r1 : ∀ i q, (d.rhsIdx i q 1).val = (q ⟨0, by omega⟩).val)
    (prec : Option ContractPrecision) (A : FVec Ideal ⟨2, ![M, K]⟩ φ₁) (B : FVec Ideal ⟨2, ![N, K]⟩ φ₂) (p : Fin M) (q : Fin N) :
    matmul d prec A B (constant ⟨2, ![M, N]⟩ .f32 0x00000000#32) (ix2 p q) = ∑ k : Fin K, A (ix2 p k) * B (ix2 q k) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 q k := funext fun a => Fin.ext (by
    match a with
    | ⟨0, _⟩ => exact r0 _ _
    | ⟨1, _⟩ => exact (r1 _ _).trans hk)
  rw [el, er]

/-- A product into the zero accumulator with BOTH operands contracted on their second axis and no batch axes, read at
    (p, q): the sum over k < K of A(p, k) · B(q, k). -/
theorem matmulT_zero_ix2 {M K N : ℕ} {φ₁ φ₂ : FTy}
    (d : DotDims ⟨2, ![M, K]⟩ ⟨2, ![N, K]⟩ ⟨2, ![M, N]⟩) (hr : d.contr.rank = 1) (hs : d.contr.size ⟨0, by omega⟩ = K)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂) (p : Fin M) (q : Fin N) :
    matmul d prec A B (constant ⟨2, ![M, N]⟩ .f32 0x00000000#32) (ix2 p q) = ∑ k : Fin K, A (ix2 p k) * B (ix2 q k) :=
  matmulT_zero_ix2_of d hr hs
    (fun i q => Cert.LibOuterDot.lhs_free_val d 0 0 hlb hln rfl i q)
    (fun i q => d.lhsIdx_val_of_single hlc i q)
    (fun i q => Cert.LibOuterDot.rhs_free_val d 0 1 0 hlb hrb hln hrn rfl i q)
    (fun i q => d.rhsIdx_val_of_single hrc i q)
    prec A B p q

/-- The host's product read at (p, q), given where the dimension numbers send the indices: the sum over k < K of
    A(p, k) · B(k, q). -/
theorem hostDot_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    Host.dotGeneral d prec A B (ix2 p q) = ∑ k : Fin K, A (ix2 p k) * B (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- The host's plain product — left operand contracted on its second axis, right on its first, no batch axes — read at
    (p, q): the sum over k < K of A(p, k) · B(k, q). -/
theorem hostDot_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    Host.dotGeneral d prec A B (ix2 p q) = ∑ k : Fin K, A (ix2 p k) * B (ix2 k q) :=
  hostDot_ix2_of d hr hs
    (fun i q => Cert.LibOuterDot.lhs_free_val d 0 0 hlb hln rfl i q)
    (fun i q => d.lhsIdx_val_of_single hlc i q)
    (fun i q => d.rhsIdx_val_of_single hrc i q)
    (fun i q => Cert.LibOuterDot.rhs_free_val d 1 1 0 hlb hrb hln hrn rfl i q)
    prec A B p q

end Cert.LibDotRead

end
-- ==== Proof.Spec.lean ====
/-
  What the mixture-of-experts layer computes, index by index, over the extended reals.

  For a token r and an expert e, the token's hidden row is projected on the 1024 rows of the expert's gate-up matrix;
  the first 512 projections g are gated, g · σ(g) with σ the logistic function, and multiplied by the last 512, and
  the 512 products are projected on row d of the expert's down matrix. The expert's share of the output at (r, d) is
  that number times the token's routing weight for the expert: the sum of the weights of those of the token's two
  slots that name the expert. The output at (r, d) is the sum of the eight experts' shares.
-/
import Idealize.ShloMosaic.Lib.ValueIdx
import Idealize.ShloMosaic.PureOps.Ideal

noncomputable section

open scoped BigOperators

namespace Cert.MoESpec

open Idealize.ShloMosaic Idealize.ShloMosaic.ValueIdx

variable (X : (⟨2, ![8192, 1024]⟩ : Shape).Idx → EReal) (TI : (⟨2, ![8192, 2]⟩ : Shape).Idx → BitVec 32)
  (TW : (⟨2, ![8192, 2]⟩ : Shape).Idx → EReal) (GU : (⟨3, ![8, 1024, 1024]⟩ : Shape).Idx → EReal)
  (DN : (⟨3, ![8, 1024, 512]⟩ : Shape).Idx → EReal)

/-- Token r's hidden row against row f of expert e's gate-up matrix. -/
def proj (e : Fin 8) (r : Fin 8192) (f : Fin 1024) : EReal := ∑ k : Fin 1024, X (ix2 r k) * GU (ix3 e f k)

/-- The gated product at (r, f): the f-th projection times its logistic, times the (512 + f)-th projection. -/
def gated (e : Fin 8) (r : Fin 8192) (f : Fin 512) : EReal :=
  proj X GU e r ⟨f.val, by omega⟩ * Ideal.logistic (proj X GU e r ⟨f.val, by omega⟩) * proj X GU e r ⟨512 + f.val, by omega⟩

/-- The gated products against row d of expert e's down matrix. -/
def contrib (e : Fin 8) (r : Fin 8192) (d : Fin 1024) : EReal := ∑ f : Fin 512, gated X GU e r f * DN (ix3 e d f)

/-- Token r's routing weight for expert e: each of its two slots counts when it names e. -/
def routed (e : Fin 8) (r : Fin 8192) : EReal :=
  Scalar.select (IntOp.cmpi .eq (TI (ix2 r (0 : Fin 2))) (BitVec.ofNat 32 e.val)) (TW (ix2 r (0 : Fin 2))) 0
    + Scalar.select (IntOp.cmpi .eq (TI (ix2 r (1 : Fin 2))) (BitVec.ofNat 32 e.val)) (TW (ix2 r (1 : Fin 2))) 0

/-- Expert e's share of the output at (r, d). -/
def share (e : Fin 8) (r : Fin 8192) (d : Fin 1024) : EReal := contrib X GU DN e r d * routed TI TW e r

/-- The layer's output at (r, d): the eight shares added. -/
def out (r : Fin 8192) (d : Fin 1024) : EReal := ∑ e : Fin 8, share X TI TW GU DN e r d

end Cert.MoESpec

end
-- ==== Proof.KernelPay.lean ====
/-
  What one grid point of the kernel adds to its output block, read at a place (p, d) of the block.

  The body multiplies the point's 512 hidden rows by the expert's gate-up matrix (the right operand contracted on its
  last axis, so no transpose is formed), gates the first 512 columns of the product by x · σ(x), multiplies by the last
  512 columns, multiplies the result by the expert's down matrix in the same way, and scales row p by the routing weight
  of the block's p-th token for the expert the point's second grid coordinate names. Changes of float format are the
  identity over the extended reals. Given which entries of the argument arrays the point's blocks hold, this is the
  specification's share of that expert at the token's row.
-/
import proofs.«119025_j42511586295841_1_alg».proof.Proof.Gen.KernelIdeal.Skeleton
import proofs.«119025_j42511586295841_1_alg».proof.Proof.LibDotRead
import proofs.«119025_j42511586295841_1_alg».proof.Proof.Spec
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The body's pieces, for any float family -/

section Terms

variable {F : FTy → Type} [FloatOps F]

/-- The block's hidden rows against every row of the expert's gate-up matrix. -/
def blockProj (x0 : Vec F S512x1024 .f32) (x1 : Vec F S1x1024x1024 .f32) : FVec F S512x1024 .f32 :=
  matmul dot_S512x1024_S1024x1024_S512x1024_1_1_0_0_n_n none (truncf .bf16 x0 bitsLt_bf16_f32)
    (truncf .bf16 (shapeCast S1024x1024 x1 shapeCasts_S1x1024x1024_S1024x1024) bitsLt_bf16_f32) (constant S512x1024 .f32 0x00000000#32)

/-- The first 512 columns, each times its logistic, times the last 512 columns. -/
def blockGated (P : FVec F S512x1024 .f32) : FVec F S512x512 .f32 :=
  mulf (mulf (extractStridedSlice S512x512 ![0, 0] P slices_S512x1024_o0_0_S512x512)
      (logistic (extractStridedSlice S512x512 ![0, 0] P slices_S512x1024_o0_0_S512x512)))
    (extractStridedSlice S512x512 ![0, 512] P slices_S512x1024_o0_512_S512x512)

/-- The body's second product is the gated block against the expert's down matrix. -/
theorem pay3_eq (x0 : Vec F S512x1024 .f32) (x1 : Vec F S1x1024x1024 .f32) (x2 : Vec F S1x1024x512 .f32) :
    k0_pay3 x0 x1 x2 = matmul dot_S512x512_S1024x512_S512x1024_1_1_0_0_n_n none (truncf .bf16 (blockGated (blockProj x0 x1)) bitsLt_bf16_f32)
      (truncf .bf16 (shapeCast S1024x512 x2 shapeCasts_S1x1024x512_S1024x512) bitsLt_bf16_f32) (constant S512x1024 .f32 0x00000000#32) := rfl

end Terms

/-! ## The same read at a place of the block, over the extended reals -/

variable (X : (⟨2, ![8192, 1024]⟩ : Shape).Idx → EReal) (TI : (⟨2, ![8192, 2]⟩ : Shape).Idx → BitVec 32)
  (TW : (⟨2, ![8192, 2]⟩ : Shape).Idx → EReal) (GU : (⟨3, ![8, 1024, 1024]⟩ : Shape).Idx → EReal)
  (DN : (⟨3, ![8, 1024, 512]⟩ : Shape).Idx → EReal)

/-- The first product at (p, f): the specification's projection of token r on row f of expert e's matrix, when row p
    of the hidden block is the token's row and the matrix block is expert e's. -/
theorem blockProj_apply (x0 : Vec Ideal S512x1024 .f32) (x1 : Vec Ideal S1x1024x1024 .f32) (e : Fin 8) (r : Fin 8192) (p : Fin 512)
    (h0 : ∀ k : Fin 1024, x0 (ix2 p k) = X (ix2 r k)) (h1 : ∀ f k : Fin 1024, x1 (ix3 (0 : Fin 1) f k) = GU (ix3 e f k)) (f : Fin 1024) :
    blockProj x0 x1 (ix2 p f) = MoESpec.proj X GU e r f := by
  unfold blockProj MoESpec.proj
  rw [Cert.LibDotRead.matmulT_zero_ix2 _ rfl rfl rfl rfl rfl rfl rfl rfl]
  refine Finset.sum_congr rfl fun k _ => ?_
  rw [truncf_apply, truncf_apply, shapeCast_1ab_ab_apply, h0, h1]

/-- The gating at (p, f). -/
theorem blockGated_apply (P : FVec Ideal S512x1024 .f32) (p f : Fin 512) :
    blockGated P (ix2 p f) = P (ix2 p ⟨f.val, by omega⟩) * Ideal.logistic (P (ix2 p ⟨f.val, by omega⟩)) * P (ix2 p ⟨512 + f.val, by omega⟩) := by
  have hg : extractStridedSlice S512x512 ![0, 0] P slices_S512x1024_o0_0_S512x512 (ix2 p f) = P (ix2 p ⟨f.val, by omega⟩) :=
    slice2_axis1_apply 0 P _ p f ⟨f.val, by omega⟩ (Nat.zero_add _).symm
  have hu : extractStridedSlice S512x512 ![0, 512] P slices_S512x1024_o0_512_S512x512 (ix2 p f) = P (ix2 p ⟨512 + f.val, by omega⟩) :=
    slice2_axis1_apply 512 P _ p f ⟨512 + f.val, by omega⟩ rfl
  show extractStridedSlice S512x512 ![0, 0] P slices_S512x1024_o0_0_S512x512 (ix2 p f)
      * Ideal.logistic (extractStridedSlice S512x512 ![0, 0] P slices_S512x1024_o0_0_S512x512 (ix2 p f))
      * extractStridedSlice S512x512 ![0, 512] P slices_S512x1024_o0_512_S512x512 (ix2 p f) = _
  rw [hg, hu]

/-- The second product at (p, d): the gated products of token r against row d of expert e's down matrix. -/
theorem pay3_apply (x0 : Vec Ideal S512x1024 .f32) (x1 : Vec Ideal S1x1024x1024 .f32) (x2 : Vec Ideal S1x1024x512 .f32)
    (e : Fin 8) (r : Fin 8192) (p : Fin 512)
    (h0 : ∀ k : Fin 1024, x0 (ix2 p k) = X (ix2 r k)) (h1 : ∀ f k : Fin 1024, x1 (ix3 (0 : Fin 1) f k) = GU (ix3 e f k))
    (h2 : ∀ (d : Fin 1024) (f : Fin 512), x2 (ix3 (0 : Fin 1) d f) = DN (ix3 e d f)) (d : Fin 1024) :
    k0_pay3 x0 x1 x2 (ix2 p d) = MoESpec.contrib X GU DN e r d := by
  rw [pay3_eq]
  unfold MoESpec.contrib
  rw [Cert.LibDotRead.matmulT_zero_ix2 _ rfl rfl rfl rfl rfl rfl rfl rfl]
  refine Finset.sum_congr rfl fun f _ => ?_
  rw [truncf_apply, truncf_apply, shapeCast_1ab_ab_apply, h2, blockGated_apply,
    blockProj_apply X GU x0 x1 e r p h0 h1, blockProj_apply X GU x0 x1 e r p h0 h1]
  rfl

/-- The routing weight laid along row p, at (p, d): the two slots of token r compared with the point's expert. -/
theorem pay5_apply (i : grid0.Coords) (x3 : Vec Ideal S512x2 .i32) (x4 : Vec Ideal S512x2 .f32) (e : Fin 8) (r : Fin 8192) (p : Fin 512)
    (hi : (i 1).val = e.val) (h3 : ∀ s : Fin 2, x3 (ix2 p s) = TI (ix2 r s)) (h4 : ∀ s : Fin 2, x4 (ix2 p s) = TW (ix2 r s)) (d : Fin 1024) :
    k0_pay5 i x3 x4 (ix2 p d) = MoESpec.routed TI TW e r := by
  unfold k0_pay5 MoESpec.routed
  dsimp only
  rw [broadcastTo_apply _ _ (ix2 p d) (ix2 p (0 : Fin 1)) (fun a => by match a with | ⟨0, _⟩ => rfl | ⟨1, _⟩ => rfl)]
  have i0 : extractStridedSlice S512x1 ![0, 0] x3 slices_S512x2_o0_0_S512x1 (ix2 p (0 : Fin 1)) = x3 (ix2 p (0 : Fin 2)) :=
    slice2_axis1_apply 0 x3 _ p (0 : Fin 1) (0 : Fin 2) rfl
  have i1 : extractStridedSlice S512x1 ![0, 1] x3 slices_S512x2_o0_1_S512x1 (ix2 p (0 : Fin 1)) = x3 (ix2 p (1 : Fin 2)) :=
    slice2_axis1_apply 1 x3 _ p (0 : Fin 1) (1 : Fin 2) rfl
  have w0 : extractStridedSlice S512x1 ![0, 0] x4 slices_S512x2_o0_0_S512x1 (ix2 p (0 : Fin 1)) = x4 (ix2 p (0 : Fin 2)) :=
    slice2_axis1_apply 0 x4 _ p (0 : Fin 1) (0 : Fin 2) rfl
  have w1 : extractStridedSlice S512x1 ![0, 1] x4 slices_S512x2_o0_1_S512x1 (ix2 p (0 : Fin 1)) = x4 (ix2 p (1 : Fin 2)) :=
    slice2_axis1_apply 1 x4 _ p (0 : Fin 1) (1 : Fin 2) rfl
  show Scalar.select (IntOp.cmpi .eq (extractStridedSlice S512x1 ![0, 0] x3 slices_S512x2_o0_0_S512x1 (ix2 p (0 : Fin 1))) (BitVec.ofNat 32 (i 1).val))
        (extractStridedSlice S512x1 ![0, 0] x4 slices_S512x2_o0_0_S512x1 (ix2 p (0 : Fin 1))) (Ideal.ofBits .f32 0x00000000#32)
      + Scalar.select (IntOp.cmpi .eq (extractStridedSlice S512x1 ![0, 1] x3 slices_S512x2_o0_1_S512x1 (ix2 p (0 : Fin 1))) (BitVec.ofNat 32 (i 1).val))
        (extractStridedSlice S512x1 ![0, 1] x4 slices_S512x2_o0_1_S512x1 (ix2 p (0 : Fin 1))) (Ideal.ofBits .f32 0x00000000#32) = _
  rw [i0, i1, w0, w1, h3, h3, h4, h4, hi, Ideal.ofBits_zero_f32]

/-- The stored value at a place: what was there plus the product times the weight. -/
theorem pay1_apply (a b w : FVec Ideal S512x1024 .f32) (y : S512x1024.Idx) : k0_pay1 a b w y = b y + a y * w y := rfl

/-- Reading the output block back is the identity. -/
theorem pay4_eq (acc : Vec Ideal S512x1024 .f32) : k0_pay4 acc = acc := by
  unfold k0_pay4
  exact shapeCast_self _ _

/-- The zero block. -/
theorem pay2_apply (y : S512x1024.Idx) : k0_pay2 (F := Ideal) y = 0 := by
  show Ideal.ofBits .f32 0x00000000#32 = 0
  exact Ideal.ofBits_zero_f32

end Cert.KernelIdeal.Pay

end
-- ==== Proof.KernelValue.lean ====
/-
  What the kernel leaves in its output array, at an index (r, d).

  The grid has 16 × 8 points, point t working on rows 512·(t / 8) … of the tokens for expert t % 8. The output block of
  a row tile is zeroed at the tile's first point and each of the tile's eight points adds its expert's share to it, so
  after the eighth the block holds zero plus the eight shares, and that block is what is written back. An index (r, d)
  lies in tile r / 512 at place (r % 512, d); there the point for expert s reads the token's own rows of the hidden
  states, the slots and the weights and expert s's two matrices, so its addend is the specification's share of expert s.
-/
import proofs.«119025_j42511586295841_1_alg».proof.Proof.Gen.KernelIdeal.Value
import proofs.«119025_j42511586295841_1_alg».proof.Proof.KernelPay

noncomputable section

open scoped BigOperators

namespace Cert.KernelIdeal.MoEValue

open Cert.KernelIdeal Cert.KernelIdeal.Gen Cert.KernelIdeal.Value Cert.KernelIdeal.Pay
open Idealize.ShloMosaic Idealize.ShloMosaic.TcCoe Idealize.SL.Sem Idealize.ShloMosaic.ValueIdx

variable (m : (ℓ : Loc nD τ sig) → Buf (Elt Ideal) ℓ)

/-! ## The argument arrays -/

abbrev aX (c : Dev nD) : FVec Ideal S8192x1024 .f32 := m ((c : Thread nD τ).loc main_arg0)
abbrev aTI (c : Dev nD) : IVec S8192x2 32 := m ((c : Thread nD τ).loc main_arg1)
abbrev aTW (c : Dev nD) : FVec Ideal S8192x2 .f32 := m ((c : Thread nD τ).loc main_arg2)
abbrev aGU (c : Dev nD) : FVec Ideal S8x1024x1024 .f32 := m ((c : Thread nD τ).loc main_arg3)
abbrev aDN (c : Dev nD) : FVec Ideal S8x1024x512 .f32 := m ((c : Thread nD τ).loc main_arg4)

/-! ## Where each point's blocks lie -/

/-- The printed index maps, decided over the grid: point t is expert t % 8 of row tile t / 8; the token windows
    take block t / 8 of their first axis, the matrix windows block t % 8 of theirs. -/
theorem point_facts : ∀ t : Fin cfg0.N, ((grid0.coords t) 1).val = t.val % 8
    ∧ win0_0.index t (0 : Fin 2) = t.val / 8 ∧ win0_0.index t (1 : Fin 2) = 0
    ∧ win0_1.index t (0 : Fin 3) = t.val % 8 ∧ win0_1.index t (1 : Fin 3) = 0 ∧ win0_1.index t (2 : Fin 3) = 0
    ∧ win0_2.index t (0 : Fin 3) = t.val % 8 ∧ win0_2.index t (1 : Fin 3) = 0 ∧ win0_2.index t (2 : Fin 3) = 0
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

/-- Row p of point t's hidden block is token 512·(t / 8) + p's row. -/
theorem blk0 (c : Dev nD) (t : Fin cfg0.N) (p : Fin 512) (r : Fin 8192) (hr : r.val = 512 * (t.val / 8) + p.val) (k : Fin 1024) :
    iblk m c 0 t (ix2 p k) = aX m c (ix2 r k) := by
  obtain ⟨-, e0, e1, -⟩ := point_facts t
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- Point t's gate-up block is expert t % 8's matrix. -/
theorem blk1 (c : Dev nD) (t : Fin cfg0.N) (e : Fin 8) (he : e.val = t.val % 8) (f k : Fin 1024) :
    iblk m c 1 t (ix3 (0 : Fin 1) f k) = aGU m c (ix3 e f k) := by
  obtain ⟨-, -, -, e0, e1, e2, -⟩ := point_facts t
  show V m c main_arg3 (((cfg0.win 1).blk t).view.emb (ix3 (0 : Fin 1) f k)) = V m c main_arg3 (ix3 e f k)
  refine congrArg _ (funext fun a => Fin.ext ?_)
  match a with
  | ⟨0, _⟩ => show win0_1.index t (0 : Fin 3) * 1 + 1 * 0 = e.val; omega
  | ⟨1, _⟩ => show win0_1.index t (1 : Fin 3) * 1024 + 1 * f.val = f.val; omega
  | ⟨2, _⟩ => show win0_1.index t (2 : Fin 3) * 1024 + 1 * k.val = k.val; omega

/-- Point t's down block is expert t % 8's matrix. -/
theorem blk2 (c : Dev nD) (t : Fin cfg0.N) (e : Fin 8) (he : e.val = t.val % 8) (d : Fin 1024) (f : Fin 512) :
    iblk m c 2 t (ix3 (0 : Fin 1) d f) = aDN m c (ix3 e d f) := by
  obtain ⟨-, -, -, -, -, -, e0, e1, e2, -⟩ := point_facts t
  show V m c main_arg4 (((cfg0.win 2).blk t).view.emb (ix3 (0 : Fin 1) d f)) = V m c main_arg4 (ix3 e d f)
  refine congrArg _ (funext fun a => Fin.ext ?_)
  match a with
  | ⟨0, _⟩ => show win0_2.index t (0 : Fin 3) * 1 + 1 * 0 = e.val; omega
  | ⟨1, _⟩ => show win0_2.index t (1 : Fin 3) * 1024 + 1 * d.val = d.val; omega
  | ⟨2, _⟩ => show win0_2.index t (2 : Fin 3) * 512 + 1 * f.val = f.val; omega

/-- Row p of point t's slot block is token 512·(t / 8) + p's two slots. -/
theorem blk3 (c : Dev nD) (t : Fin cfg0.N) (p : Fin 512) (r : Fin 8192) (hr : r.val = 512 * (t.val / 8) + p.val) (s : Fin 2) :
    iblk m c 3 t (ix2 p s) = aTI m c (ix2 r s) := by
  obtain ⟨-, -, -, -, -, -, -, -, -, e0, e1, -⟩ := point_facts t
  show V m c main_arg1 (((cfg0.win 3).blk t).view.emb (ix2 p s)) = V m c main_arg1 (ix2 r s)
  refine congrArg _ (funext fun a => Fin.ext ?_)
  match a with
  | ⟨0, _⟩ => show win0_3.index t (0 : Fin 2) * 512 + 1 * p.val = r.val; omega
  | ⟨1, _⟩ => show win0_3.index t (1 : Fin 2) * 2 + 1 * s.val = s.val; omega

/-- … and of its weight block the token's two weights. -/
theorem blk4 (c : Dev nD) (t : Fin cfg0.N) (p : Fin 512) (r : Fin 8192) (hr : r.val = 512 * (t.val / 8) + p.val) (s : Fin 2) :
    iblk m c 4 t (ix2 p s) = aTW m c (ix2 r s) := by
  obtain ⟨-, -, -, -, -, -, -, -, -, -, -, e0, e1⟩ := point_facts t
  show V m c main_arg2 (((cfg0.win 4).blk t).view.emb (ix2 p s)) = V m c main_arg2 (ix2 r s)
  refine congrArg _ (funext fun a => Fin.ext ?_)
  match a with
  | ⟨0, _⟩ => show win0_4.index t (0 : Fin 2) * 512 + 1 * p.val = r.val; omega
  | ⟨1, _⟩ => show win0_4.index t (1 : Fin 2) * 2 + 1 * s.val = s.val; omega

/-! ## What a point adds -/

/-- Point n's addend to its output block: the second product times the routing weights (zero past the grid). -/
def addend (c : Dev nD) (n : ℕ) : S512x1024.Idx → EReal := fun y =>
  if h : n < cfg0.N then
    k0_pay3 (iblk m c 0 ⟨n, h⟩) (iblk m c 1 ⟨n, h⟩) (iblk m c 2 ⟨n, h⟩) y * k0_pay5 (grid0.coords ⟨n, h⟩) (iblk m c 3 ⟨n, h⟩) (iblk m c 4 ⟨n, h⟩) y
  else 0

/-- A tile's first point leaves zero plus its addend. -/
theorem reset_apply (c : Dev nD) (b : ℕ) (h : b < cfg0.N) (y : S512x1024.Idx) :
    reset5 m c b h y = (fun _ => (0 : EReal)) y + addend m c b y := by
  unfold reset5 addend
  rw [dif_pos h, pay1_apply, pay4_eq, pay2_apply]

/-- A later point adds its addend to what the point before left. -/
theorem step_apply (c : Dev nD) (n : ℕ) (h : n < cfg0.N) (acc : S512x1024.Idx → EReal) (y : S512x1024.Idx) :
    step5 m c n h acc y = acc y + addend m c n y := by
  unfold step5 addend
  rw [dif_pos h, pay1_apply, pay4_eq]

/-- The addend of the point for expert s of row tile q, at place (p, d): expert s's share at token 512·q + p. -/
theorem addend_apply (c : Dev nD) (q s : ℕ) (hq : q < 16) (hs : s < 8) (p : Fin 512) (r : Fin 8192) (hr : r.val = 512 * q + p.val) (d : Fin 1024) :
    addend m c (8 * q + s) (ix2 p d) = MoESpec.share (aX m c) (aTI m c) (aTW m c) (aGU m c) (aDN m c) ⟨s, hs⟩ r d := by
  have hN : cfg0.N = 128 := N_0
  have h : 8 * q + s < cfg0.N := by omega
  have hdiv : (8 * q + s) / 8 = q := by omega
  have hmod : (8 * q + s) % 8 = s := by omega
  have hc : ((grid0.coords ⟨8 * q + s, h⟩) 1).val = (8 * q + s) % 8 := (point_facts ⟨8 * q + s, h⟩).1
  unfold addend MoESpec.share
  rw [dif_pos h]
  have e3 := pay3_apply (aX m c) (aGU m c) (aDN m c) (iblk m c 0 ⟨8 * q + s, h⟩) (iblk m c 1 ⟨8 * q + s, h⟩) (iblk m c 2 ⟨8 * q + s, h⟩)
    ⟨s, hs⟩ r p (fun k => blk0 m c ⟨8 * q + s, h⟩ p r (by show r.val = 512 * ((8 * q + s) / 8) + p.val; omega) k)
    (fun f k => blk1 m c ⟨8 * q + s, h⟩ ⟨s, hs⟩ (by show s = (8 * q + s) % 8; omega) f k)
    (fun d' f => blk2 m c ⟨8 * q + s, h⟩ ⟨s, hs⟩ (by show s = (8 * q + s) % 8; omega) d' f) d
  have e5 := pay5_apply (aTI m c) (aTW m c) (grid0.coords ⟨8 * q + s, h⟩) (iblk m c 3 ⟨8 * q + s, h⟩) (iblk m c 4 ⟨8 * q + s, h⟩)
    ⟨s, hs⟩ r p (hc.trans hmod)
    (fun k => blk3 m c ⟨8 * q + s, h⟩ p r (by show r.val = 512 * ((8 * q + s) / 8) + p.val; omega) k)
    (fun k => blk4 m c ⟨8 * q + s, h⟩ p r (by show r.val = 512 * ((8 * q + s) / 8) + p.val; omega) k) d
  rw [e3, e5]

/-! ## The array after the run -/

/-- The kernel's output array at (r, d) is the specification's output. -/
theorem G5_apply (c : Dev nD) (r : Fin 8192) (d : Fin 1024) :
    G5 m c (ix2 r d) = MoESpec.out (aX m c) (aTI m c) (aTW m c) (aGU m c) (aDN m c) r d := by
  have hN : cfg0.N = 128 := N_0
  have hr := r.isLt
  have hd := d.isLt
  have hrun : run5Of (ix2 r d) = r.val / 512 := by
    show 1 * (r.val / 512 - 0) + 1 * (d.val / 1024 - 0) = r.val / 512
    have : d.val / 1024 = 0 := Nat.div_eq_of_lt hd
    omega
  have hloc : loc5Of (ix2 r d) = ix2 (⟨r.val % 512, Nat.mod_lt _ (by decide)⟩ : Fin 512) d := by
    funext a; apply Fin.ext
    match a with
    | ⟨0, _⟩ => rfl
    | ⟨1, _⟩ => exact Nat.mod_eq_of_lt hd
  have hb : 8 * run5Of (ix2 r d) + 7 < cfg0.N := by rw [hrun, hN]; omega
  unfold G5
  rw [dif_pos hb]
  refine (Pipeline.accAt_add_apply (ι := S512x1024.Idx) (β := EReal) (reset5 m c) (step5 m c) (fun _ => (0 : EReal)) (addend m c)
    (8 * run5Of (ix2 r d)) 7 (fun h y => reset_apply m c _ h y) (fun n h acc y _ _ => step_apply m c n h acc y) 7 (Nat.le_refl 7) hb
    (loc5Of (ix2 r d))).trans ?_
  show (0 : EReal) + ∑ s ∈ Finset.range 8, addend m c (8 * run5Of (ix2 r d) + s) (loc5Of (ix2 r d)) = _
  rw [zero_add, Finset.sum_range, hloc, hrun]
  unfold MoESpec.out
  refine Finset.sum_congr rfl fun s _ => ?_
  exact addend_apply m c (r.val / 512) s.val (by omega) s.isLt ⟨r.val % 512, Nat.mod_lt _ (by decide)⟩ r
    (by show r.val = 512 * (r.val / 512) + r.val % 512; omega) d

/-! ## The run -/

/-- Every weakly fair execution of the kernel's program terminates with the output array holding, at every index,
    the specification's output of the argument arrays, and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = (fun i => MoESpec.out (aX m c) (aTI m c) (aTW m c) (aGU m c) (aDN m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (funext fun i => by
      obtain ⟨a, b, rfl⟩ : ∃ (a : Fin 8192) (b : Fin 1024), i = ix2 a b := ⟨i 0, i 1, eq_ix2 i⟩
      exact G5_apply m c a b), (h c).2⟩)
    (Cert.KernelIdeal.Value.run (F := Ideal) m ρ)

end Cert.KernelIdeal.MoEValue

end
-- ==== Proof.RefTerm.lean ====
/-
  One expert's share of the output as the reference's host operations compose it, for any expert number e, and that
  array read at an index.

  The reference cuts expert e's gate-up matrix out of the stack, transposes it and multiplies the hidden states by it;
  the first 512 columns of the product are gated by x · (1 / (1 + exp (−x))), which is x · σ(x) with σ the logistic
  function, and multiplied by the last 512 columns; the result is multiplied by the transposed down matrix of the
  expert; and each row is scaled by the token's routing weight, the sum over the token's two slots of the slot's weight
  where the slot names e and 0 elsewhere. Read at (r, d) this is the specification's share of expert e.
-/
import proofs.«119025_j42511586295841_1_alg».proof.Proof.Gen.ReferenceIdeal
import proofs.«119025_j42511586295841_1_alg».proof.Proof.LibDotRead
import proofs.«119025_j42511586295841_1_alg».proof.Proof.Spec
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.ReferenceIdeal.Expert

open Cert.ReferenceIdeal Cert.ReferenceIdeal.Gen Idealize.ShloMosaic Idealize.ShloMosaic.ValueIdx

/-! ## The arrays one expert's operations compute, for any float family -/

section Terms

variable {F : FTy → Type} [FloatOps F]

/-- Expert e's gate-up matrix cut out of the stack and transposed: entry (k, f) is the stack's (e, f, k). -/
def gateUpT (e : ℕ) (hg : S8x1024x1024.Slices ![e, 0, 0] S1x1024x1024) (GU : FVec F S8x1024x1024 .f32) : FVec F S1024x1024 .f32 :=
  transpose S1024x1024 [1, 0] (shapeCast _ (extractStridedSlice S1x1024x1024 ![e, 0, 0] GU hg) shapeCasts_S1x1024x1024_S1024x1024) transposes_S1024x1024_S1024x1024_1_0

/-- Every token's hidden row against every row of expert e's gate-up matrix. -/
def projections (e : ℕ) (hg : S8x1024x1024.Slices ![e, 0, 0] S1x1024x1024) (X : FVec F S8192x1024 .f32) (GU : FVec F S8x1024x1024 .f32) :
    FVec F S8192x1024 .f32 :=
  Host.dotGeneral dot_S8192x1024_S1024x1024_S8192x1024_1_0_0_1_n_n none X (gateUpT e hg GU)

/-- Expert e's down matrix cut out of the stack and transposed: entry (f, d) is the stack's (e, d, f). -/
def downT (e : ℕ) (hd : S8x1024x512.Slices ![e, 0, 0] S1x1024x512) (DN : FVec F S8x1024x512 .f32) : FVec F S512x1024 .f32 :=
  transpose S512x1024 [1, 0] (shapeCast _ (extractStridedSlice S1x1024x512 ![e, 0, 0] DN hd) shapeCasts_S1x1024x512_S1024x512) transposes_S1024x512_S512x1024_1_0

/-- The first 512 columns of the projections, each times 1 / (1 + exp (−itself)), times the last 512 columns. -/
def gatedAll (P : FVec F S8192x1024 .f32) : FVec F S8192x512 .f32 :=
  mulf (mulf (extractStridedSlice S8192x512 ![0, 0] P slices_S8192x1024_S8192x512_0_0)
      (Host.divf (broadcastInDim S8192x512 ![] bcast_S_S8192x512 (constant S_ .f32 0x3F800000#32))
        (addf (broadcastInDim S8192x512 ![] bcast_S_S8192x512 (constant S_ .f32 0x3F800000#32))
          (Host.exp (Host.negf (extractStridedSlice S8192x512 ![0, 0] P slices_S8192x1024_S8192x512_0_0))))))
    (extractStridedSlice S8192x512 ![0, 512] P slices_S8192x1024_S8192x512_0_512)

/-- Each token's routing weight for expert e, laid along the token's whole output row. -/
def weights (e : ℕ) (TI : IVec S8192x2 32) (TW : FVec F S8192x2 .f32) : FVec F S8192x1024 .f32 :=
  broadcastInDim S8192x1024 ![0, 1] bcast_S8192x1_S8192x1024_0_1 (broadcastInDim S8192x1 ![0] bcast_S8192_S8192x1_0
    (Host.reduceAdd (select (cmpi .eq TI (broadcastInDim S8192x2 ![] bcast_S_S8192x2 (constantI S_ 32 (BitVec.ofNat 32 e)))) TW
      (broadcastInDim S8192x2 ![] bcast_S_S8192x2 (id (constant S_ .f32 0x00000000#32)))) (constant S_ .f32 0x00000000#32) reducesTo_S8192x2_S8192_d1 h_S_))

/-- Expert e's share of the output, as the reference's operations compose it. -/
def term (e : ℕ) (hg : S8x1024x1024.Slices ![e, 0, 0] S1x1024x1024) (hd : S8x1024x512.Slices ![e, 0, 0] S1x1024x512)
    (X : FVec F S8192x1024 .f32) (TI : IVec S8192x2 32) (TW : FVec F S8192x2 .f32) (GU : FVec F S8x1024x1024 .f32)
    (DN : FVec F S8x1024x512 .f32) : FVec F S8192x1024 .f32 :=
  mulf (Host.dotGeneral dot_S8192x512_S512x1024_S8192x1024_1_0_0_1_n_n none (gatedAll (projections e hg X GU)) (downT e hd DN)) (weights e TI TW)

end Terms

/-! ## The same arrays read at an index, over the extended reals -/

theorem gateUpT_apply (e : ℕ) (he : e < 8) (hg : S8x1024x1024.Slices ![e, 0, 0] S1x1024x1024) (GU : FVec Ideal S8x1024x1024 .f32)
    (k f : Fin 1024) : gateUpT e hg GU (ix2 k f) = GU (ix3 (⟨e, he⟩ : Fin 8) f k) := by
  unfold gateUpT
  rw [transpose_ix2_apply, shapeCast_1ab_ab_apply]
  exact extractStridedSlice_apply _ _ _ _ _ fun ax => by
    match ax with
    | ⟨0, _⟩ => exact (Nat.add_zero _).symm
    | ⟨1, _⟩ => exact (Nat.zero_add _).symm
    | ⟨2, _⟩ => exact (Nat.zero_add _).symm

theorem downT_apply (e : ℕ) (he : e < 8) (hd : S8x1024x512.Slices ![e, 0, 0] S1x1024x512) (DN : FVec Ideal S8x1024x512 .f32)
    (f : Fin 512) (d : Fin 1024) : downT e hd DN (ix2 f d) = DN (ix3 (⟨e, he⟩ : Fin 8) d f) := by
  unfold downT
  rw [transpose_ix2_apply, shapeCast_1ab_ab_apply]
  exact extractStridedSlice_apply _ _ _ _ _ fun ax => by
    match ax with
    | ⟨0, _⟩ => exact (Nat.add_zero _).symm
    | ⟨1, _⟩ => exact (Nat.zero_add _).symm
    | ⟨2, _⟩ => exact (Nat.zero_add _).symm

/-- The host's product of the hidden states with the transposed gate-up matrix, at (r, f): the specification's
    projection, a sum over the 1024 hidden coordinates. -/
theorem projections_apply (e : ℕ) (he : e < 8) (hg : S8x1024x1024.Slices ![e, 0, 0] S1x1024x1024) (X : FVec Ideal S8192x1024 .f32)
    (GU : FVec Ideal S8x1024x1024 .f32) (r : Fin 8192) (f : Fin 1024) :
    projections e hg X GU (ix2 r f) = MoESpec.proj X GU ⟨e, he⟩ r f := by
  unfold projections MoESpec.proj
  rw [Cert.LibDotRead.hostDot_ix2 _ rfl rfl rfl rfl rfl rfl rfl rfl]
  exact Finset.sum_congr rfl fun k _ => by rw [gateUpT_apply e he]

/-- The gating at (r, f): x / (1 + exp (−x)) spelt with the host's operations is x · σ(x). -/
theorem gatedAll_apply (P : FVec Ideal S8192x1024 .f32) (r : Fin 8192) (f : Fin 512) :
    gatedAll P (ix2 r f) = P (ix2 r ⟨f.val, by omega⟩) * Ideal.logistic (P (ix2 r ⟨f.val, by omega⟩)) * P (ix2 r ⟨512 + f.val, by omega⟩) := by
  have hg : extractStridedSlice S8192x512 ![0, 0] P slices_S8192x1024_S8192x512_0_0 (ix2 r f) = P (ix2 r ⟨f.val, by omega⟩) :=
    slice2_axis1_apply 0 P _ r f ⟨f.val, by omega⟩ (Nat.zero_add _).symm
  have hu : extractStridedSlice S8192x512 ![0, 512] P slices_S8192x1024_S8192x512_0_512 (ix2 r f) = P (ix2 r ⟨512 + f.val, by omega⟩) :=
    slice2_axis1_apply 512 P _ r f ⟨512 + f.val, by omega⟩ rfl
  show extractStridedSlice S8192x512 ![0, 0] P slices_S8192x1024_S8192x512_0_0 (ix2 r f)
      * Ideal.div (Ideal.ofBits .f32 0x3F800000#32)
          (Ideal.ofBits .f32 0x3F800000#32 + Ideal.exp (-(extractStridedSlice S8192x512 ![0, 0] P slices_S8192x1024_S8192x512_0_0 (ix2 r f))))
      * extractStridedSlice S8192x512 ![0, 512] P slices_S8192x1024_S8192x512_0_512 (ix2 r f) = _
  rw [hg, hu, Ideal.ofBits_one_f32]
  rfl

/-- The routing weights at (r, d): the host's sum over the token's two slots, from the initial value 0. -/
theorem weights_apply (e : ℕ) (he : e < 8) (TI : IVec S8192x2 32) (TW : FVec Ideal S8192x2 .f32) (r : Fin 8192) (d : Fin 1024) :
    weights e TI TW (ix2 r d) = MoESpec.routed TI TW ⟨e, he⟩ r := by
  unfold weights
  rw [broadcastInDim_apply _ _ _ (ix2 r d) (ix2 r (0 : Fin 1)) (fun a => by match a with | ⟨0, _⟩ => rfl | ⟨1, _⟩ => rfl),
    broadcastInDim_apply _ _ _ (ix2 r (0 : Fin 1)) (ix1 r) (fun a => by match a with | ⟨0, _⟩ => rfl),
    hostReduceAdd_apply, Ideal.hostReduceAdd_single reducesTo_S8192x2_S8192_d1 (by decide : S8192x2.Reduces [1] S8192)]
  have hl : ∀ k : Fin 2, (by decide : S8192x2.Reduces [1] S8192).lift (ix1 r) k = ix2 r k := fun k =>
    funext fun a => Fin.ext (by match a with | ⟨0, _⟩ => rfl | ⟨1, _⟩ => rfl)
  show Ideal.ofBits .f32 0x00000000#32 + ∑ k : Fin 2, _ = _
  rw [Fin.sum_univ_two, hl 0, hl 1]
  show Ideal.ofBits .f32 0x00000000#32
      + (Scalar.select (IntOp.cmpi .eq (TI (ix2 r (0 : Fin 2))) (BitVec.ofNat 32 e)) (TW (ix2 r (0 : Fin 2))) (Ideal.ofBits .f32 0x00000000#32)
        + Scalar.select (IntOp.cmpi .eq (TI (ix2 r (1 : Fin 2))) (BitVec.ofNat 32 e)) (TW (ix2 r (1 : Fin 2))) (Ideal.ofBits .f32 0x00000000#32)) = _
  rw [Ideal.ofBits_zero_f32, zero_add]
  rfl

/-- Expert e's share as the reference composes it, at (r, d): the specification's. -/
theorem term_apply (e : ℕ) (he : e < 8) (hg : S8x1024x1024.Slices ![e, 0, 0] S1x1024x1024) (hd : S8x1024x512.Slices ![e, 0, 0] S1x1024x512)
    (X : FVec Ideal S8192x1024 .f32) (TI : IVec S8192x2 32) (TW : FVec Ideal S8192x2 .f32) (GU : FVec Ideal S8x1024x1024 .f32)
    (DN : FVec Ideal S8x1024x512 .f32) (r : Fin 8192) (d : Fin 1024) :
    term e hg hd X TI TW GU DN (ix2 r d) = MoESpec.share X TI TW GU DN ⟨e, he⟩ r d := by
  unfold term MoESpec.share MoESpec.contrib
  rw [mulf_apply, weights_apply e he, Cert.LibDotRead.hostDot_ix2 _ rfl rfl rfl rfl rfl rfl rfl rfl]
  congr 1
  refine Finset.sum_congr rfl fun f _ => ?_
  rw [downT_apply e he, gatedAll_apply, projections_apply e he, projections_apply e he]
  rfl

end Cert.ReferenceIdeal.Expert

end
-- ==== Proof.RefValue.lean ====
/-
  What the reference leaves in its result array, read off the fold of its operations window by window.

  Each expert's window of operations adds that expert's share, computed from the five argument arrays, to the array the
  window before left, and writes none of the arguments; the first window makes the zero array. So the result is zero plus
  the eight shares, added in the experts' order, and at an index that is the specification's output.
-/
import proofs.«119025_j42511586295841_1_alg».proof.Proof.RefOps
import proofs.«119025_j42511586295841_1_alg».proof.Proof.RefTerm

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RunW Cert.ReferenceIdeal.Expert Idealize.ShloMosaic.ValueIdx

variable {F : FTy → Type} [FloatOps F]

/-- Two lists of operations run one after the other fold as the second from what the first leaves. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The first window: the zero array -/

theorem init_acc (W : Valuation τ sig (Elt F)) :
    after opsInit W (Proc.devRef .tc main_v0) = (broadcastInDim S8192x1024 ![] bcast_S_S8192x1024 (constant S_ .f32 0x00000000#32) : FVec F S8192x1024 .f32) := by
  after_results_simp
theorem init_arg0 (W : Valuation τ sig (Elt F)) : after opsInit W (Proc.devRef .tc main_arg0) = W (Proc.devRef .tc main_arg0) := by after_results_simp
theorem init_arg1 (W : Valuation τ sig (Elt F)) : after opsInit W (Proc.devRef .tc main_arg1) = W (Proc.devRef .tc main_arg1) := by after_results_simp
theorem init_arg2 (W : Valuation τ sig (Elt F)) : after opsInit W (Proc.devRef .tc main_arg2) = W (Proc.devRef .tc main_arg2) := by after_results_simp
theorem init_arg3 (W : Valuation τ sig (Elt F)) : after opsInit W (Proc.devRef .tc main_arg3) = W (Proc.devRef .tc main_arg3) := by after_results_simp
theorem init_arg4 (W : Valuation τ sig (Elt F)) : after opsInit W (Proc.devRef .tc main_arg4) = W (Proc.devRef .tc main_arg4) := by after_results_simp

/-! ## Expert 0's window -/

set_option maxHeartbeats 4000000 in
theorem e0_acc (W : Valuation τ sig (Elt F)) :
    after opsE0 W (Proc.devRef .tc main_v20) = addf (s := S8192x1024) (φ := .f32) (W (Proc.devRef .tc main_v0))
      (term 0 slices_S8x1024x1024_S1x1024x1024_0_0_0 slices_S8x1024x512_S1x1024x512_0_0_0 (W (Proc.devRef .tc main_arg0)) (W (Proc.devRef .tc main_arg1)) (W (Proc.devRef .tc main_arg2)) (W (Proc.devRef .tc main_arg3)) (W (Proc.devRef .tc main_arg4))) := by
  after_results_simp
  rfl
set_option maxHeartbeats 1000000 in
theorem e0_arg0 (W : Valuation τ sig (Elt F)) : after opsE0 W (Proc.devRef .tc main_arg0) = W (Proc.devRef .tc main_arg0) := by after_results_simp
set_option maxHeartbeats 1000000 in
theorem e0_arg1 (W : Valuation τ sig (Elt F)) : after opsE0 W (Proc.devRef .tc main_arg1) = W (Proc.devRef .tc main_arg1) := by after_results_simp
set_option maxHeartbeats 1000000 in
theorem e0_arg2 (W : Valuation τ sig (Elt F)) : after opsE0 W (Proc.devRef .tc main_arg2) = W (Proc.devRef .tc main_arg2) := by after_results_simp
set_option maxHeartbeats 1000000 in
theorem e0_arg3 (W : Valuation τ sig (Elt F)) : after opsE0 W (Proc.devRef .tc main_arg3) = W (Proc.devRef .tc main_arg3) := by after_results_simp
set_option maxHeartbeats 1000000 in
theorem e0_arg4 (W : Valuation τ sig (Elt F)) : after opsE0 W (Proc.devRef .tc main_arg4) = W (Proc.devRef .tc main_arg4) := by after_results_simp

/-! ## Expert 1's window -/

set_option maxHeartbeats 4000000 in
theorem e1_acc (W : Valuation τ sig (Elt F)) :
    after opsE1 W (Proc.devRef .tc main_v40) = addf (s := S8192x1024) (φ := .f32) (W (Proc.devRef .tc main_v20))
      (term 1 slices_S8x1024x1024_S1x1024x1024_1_0_0 slices_S8x1024x512_S1x1024x512_1_0_0 (W (Proc.devRef .tc main_arg0)) (W (Proc.devRef .tc main_arg1)) (W (Proc.devRef .tc main_arg2)) (W (Proc.devRef .tc main_arg3)) (W (Proc.devRef .tc main_arg4))) := by
  after_results_simp
  rfl
set_option maxHeartbeats 1000000 in
theorem e1_arg0 (W : Valuation τ sig (Elt F)) : after opsE1 W (Proc.devRef .tc main_arg0) = W (Proc.devRef .tc main_arg0) := by after_results_simp
set_option maxHeartbeats 1000000 in
theorem e1_arg1 (W : Valuation τ sig (Elt F)) : after opsE1 W (Proc.devRef .tc main_arg1) = W (Proc.devRef .tc main_arg1) := by after_results_simp
set_option maxHeartbeats 1000000 in
theorem e1_arg2 (W : Valuation τ sig (Elt F)) : after opsE1 W (Proc.devRef .tc main_arg2) = W (Proc.devRef .tc main_arg2) := by after_results_simp
set_option maxHeartbeats 1000000 in
theorem e1_arg3 (W : Valuation τ sig (Elt F)) : after opsE1 W (Proc.devRef .tc main_arg3) = W (Proc.devRef .tc main_arg3) := by after_results_simp
set_option maxHeartbeats 1000000 in
theorem e1_arg4 (W : Valuation τ sig (Elt F)) : after opsE1 W (Proc.devRef .tc main_arg4) = W (Proc.devRef .tc main_arg4) := by after_results_simp

/-! ## Expert 2's window -/

set_option maxHeartbeats 4000000 in
theorem e2_acc (W : Valuation τ sig (Elt F)) :
    after opsE2 W (Proc.devRef .tc main_v60) = addf (s := S8192x1024) (φ := .f32) (W (Proc.devRef .tc main_v40))
      (term 2 slices_S8x1024x1024_S1x1024x1024_2_0_0 slices_S8x1024x512_S1x1024x512_2_0_0 (W (Proc.devRef .tc main_arg0)) (W (Proc.devRef .tc main_arg1)) (W (Proc.devRef .tc main_arg2)) (W (Proc.devRef .tc main_arg3)) (W (Proc.devRef .tc main_arg4))) := by
  after_results_simp
  rfl
set_option maxHeartbeats 1000000 in
theorem e2_arg0 (W : Valuation τ sig (Elt F)) : after opsE2 W (Proc.devRef .tc main_arg0) = W (Proc.devRef .tc main_arg0) := by after_results_simp
set_option maxHeartbeats 1000000 in
theorem e2_arg1 (W : Valuation τ sig (Elt F)) : after opsE2 W (Proc.devRef .tc main_arg1) = W (Proc.devRef .tc main_arg1) := by after_results_simp
set_option maxHeartbeats 1000000 in
theorem e2_arg2 (W : Valuation τ sig (Elt F)) : after opsE2 W (Proc.devRef .tc main_arg2) = W (Proc.devRef .tc main_arg2) := by after_results_simp
set_option maxHeartbeats 1000000 in
theorem e2_arg3 (W : Valuation τ sig (Elt F)) : after opsE2 W (Proc.devRef .tc main_arg3) = W (Proc.devRef .tc main_arg3) := by after_results_simp
set_option maxHeartbeats 1000000 in
theorem e2_arg4 (W : Valuation τ sig (Elt F)) : after opsE2 W (Proc.devRef .tc main_arg4) = W (Proc.devRef .tc main_arg4) := by after_results_simp

/-! ## Expert 3's window -/

set_option maxHeartbeats 4000000 in
theorem e3_acc (W : Valuation τ sig (Elt F)) :
    after opsE3 W (Proc.devRef .tc main_v80) = addf (s := S8192x1024) (φ := .f32) (W (Proc.devRef .tc main_v60))
      (term 3 slices_S8x1024x1024_S1x1024x1024_3_0_0 slices_S8x1024x512_S1x1024x512_3_0_0 (W (Proc.devRef .tc main_arg0)) (W (Proc.devRef .tc main_arg1)) (W (Proc.devRef .tc main_arg2)) (W (Proc.devRef .tc main_arg3)) (W (Proc.devRef .tc main_arg4))) := by
  after_results_simp
  rfl
set_option maxHeartbeats 1000000 in
theorem e3_arg0 (W : Valuation τ sig (Elt F)) : after opsE3 W (Proc.devRef .tc main_arg0) = W (Proc.devRef .tc main_arg0) := by after_results_simp
set_option maxHeartbeats 1000000 in
theorem e3_arg1 (W : Valuation τ sig (Elt F)) : after opsE3 W (Proc.devRef .tc main_arg1) = W (Proc.devRef .tc main_arg1) := by after_results_simp
set_option maxHeartbeats 1000000 in
theorem e3_arg2 (W : Valuation τ sig (Elt F)) : after opsE3 W (Proc.devRef .tc main_arg2) = W (Proc.devRef .tc main_arg2) := by after_results_simp
set_option maxHeartbeats 1000000 in
theorem e3_arg3 (W : Valuation τ sig (Elt F)) : after opsE3 W (Proc.devRef .tc main_arg3) = W (Proc.devRef .tc main_arg3) := by after_results_simp
set_option maxHeartbeats 1000000 in
theorem e3_arg4 (W : Valuation τ sig (Elt F)) : after opsE3 W (Proc.devRef .tc main_arg4) = W (Proc.devRef .tc main_arg4) := by after_results_simp

/-! ## Expert 4's window -/

set_option maxHeartbeats 4000000 in
theorem e4_acc (W : Valuation τ sig (Elt F)) :
    after opsE4 W (Proc.devRef .tc main_v100) = addf (s := S8192x1024) (φ := .f32) (W (Proc.devRef .tc main_v80))
      (term 4 slices_S8x1024x1024_S1x1024x1024_4_0_0 slices_S8x1024x512_S1x1024x512_4_0_0 (W (Proc.devRef .tc main_arg0)) (W (Proc.devRef .tc main_arg1)) (W (Proc.devRef .tc main_arg2)) (W (Proc.devRef .tc main_arg3)) (W (Proc.devRef .tc main_arg4))) := by
  after_results_simp
  rfl
set_option maxHeartbeats 1000000 in
theorem e4_arg0 (W : Valuation τ sig (Elt F)) : after opsE4 W (Proc.devRef .tc main_arg0) = W (Proc.devRef .tc main_arg0) := by after_results_simp
set_option maxHeartbeats 1000000 in
theorem e4_arg1 (W : Valuation τ sig (Elt F)) : after opsE4 W (Proc.devRef .tc main_arg1) = W (Proc.devRef .tc main_arg1) := by after_results_simp
set_option maxHeartbeats 1000000 in
theorem e4_arg2 (W : Valuation τ sig (Elt F)) : after opsE4 W (Proc.devRef .tc main_arg2) = W (Proc.devRef .tc main_arg2) := by after_results_simp
set_option maxHeartbeats 1000000 in
theorem e4_arg3 (W : Valuation τ sig (Elt F)) : after opsE4 W (Proc.devRef .tc main_arg3) = W (Proc.devRef .tc main_arg3) := by after_results_simp
set_option maxHeartbeats 1000000 in
theorem e4_arg4 (W : Valuation τ sig (Elt F)) : after opsE4 W (Proc.devRef .tc main_arg4) = W (Proc.devRef .tc main_arg4) := by after_results_simp

/-! ## Expert 5's window -/

set_option maxHeartbeats 4000000 in
theorem e5_acc (W : Valuation τ sig (Elt F)) :
    after opsE5 W (Proc.devRef .tc main_v120) = addf (s := S8192x1024) (φ := .f32) (W (Proc.devRef .tc main_v100))
      (term 5 slices_S8x1024x1024_S1x1024x1024_5_0_0 slices_S8x1024x512_S1x1024x512_5_0_0 (W (Proc.devRef .tc main_arg0)) (W (Proc.devRef .tc main_arg1)) (W (Proc.devRef .tc main_arg2)) (W (Proc.devRef .tc main_arg3)) (W (Proc.devRef .tc main_arg4))) := by
  after_results_simp
  rfl
set_option maxHeartbeats 1000000 in
theorem e5_arg0 (W : Valuation τ sig (Elt F)) : after opsE5 W (Proc.devRef .tc main_arg0) = W (Proc.devRef .tc main_arg0) := by after_results_simp
set_option maxHeartbeats 1000000 in
theorem e5_arg1 (W : Valuation τ sig (Elt F)) : after opsE5 W (Proc.devRef .tc main_arg1) = W (Proc.devRef .tc main_arg1) := by after_results_simp
set_option maxHeartbeats 1000000 in
theorem e5_arg2 (W : Valuation τ sig (Elt F)) : after opsE5 W (Proc.devRef .tc main_arg2) = W (Proc.devRef .tc main_arg2) := by after_results_simp
set_option maxHeartbeats 1000000 in
theorem e5_arg3 (W : Valuation τ sig (Elt F)) : after opsE5 W (Proc.devRef .tc main_arg3) = W (Proc.devRef .tc main_arg3) := by after_results_simp
set_option maxHeartbeats 1000000 in
theorem e5_arg4 (W : Valuation τ sig (Elt F)) : after opsE5 W (Proc.devRef .tc main_arg4) = W (Proc.devRef .tc main_arg4) := by after_results_simp

/-! ## Expert 6's window -/

set_option maxHeartbeats 4000000 in
theorem e6_acc (W : Valuation τ sig (Elt F)) :
    after opsE6 W (Proc.devRef .tc main_v140) = addf (s := S8192x1024) (φ := .f32) (W (Proc.devRef .tc main_v120))
      (term 6 slices_S8x1024x1024_S1x1024x1024_6_0_0 slices_S8x1024x512_S1x1024x512_6_0_0 (W (Proc.devRef .tc main_arg0)) (W (Proc.devRef .tc main_arg1)) (W (Proc.devRef .tc main_arg2)) (W (Proc.devRef .tc main_arg3)) (W (Proc.devRef .tc main_arg4))) := by
  after_results_simp
  rfl
set_option maxHeartbeats 1000000 in
theorem e6_arg0 (W : Valuation τ sig (Elt F)) : after opsE6 W (Proc.devRef .tc main_arg0) = W (Proc.devRef .tc main_arg0) := by after_results_simp
set_option maxHeartbeats 1000000 in
theorem e6_arg1 (W : Valuation τ sig (Elt F)) : after opsE6 W (Proc.devRef .tc main_arg1) = W (Proc.devRef .tc main_arg1) := by after_results_simp
set_option maxHeartbeats 1000000 in
theorem e6_arg2 (W : Valuation τ sig (Elt F)) : after opsE6 W (Proc.devRef .tc main_arg2) = W (Proc.devRef .tc main_arg2) := by after_results_simp
set_option maxHeartbeats 1000000 in
theorem e6_arg3 (W : Valuation τ sig (Elt F)) : after opsE6 W (Proc.devRef .tc main_arg3) = W (Proc.devRef .tc main_arg3) := by after_results_simp
set_option maxHeartbeats 1000000 in
theorem e6_arg4 (W : Valuation τ sig (Elt F)) : after opsE6 W (Proc.devRef .tc main_arg4) = W (Proc.devRef .tc main_arg4) := by after_results_simp

/-! ## Expert 7's window -/

set_option maxHeartbeats 4000000 in
theorem e7_acc (W : Valuation τ sig (Elt F)) :
    after opsE7 W (Proc.devRef .tc main_v160) = addf (s := S8192x1024) (φ := .f32) (W (Proc.devRef .tc main_v140))
      (term 7 slices_S8x1024x1024_S1x1024x1024_7_0_0 slices_S8x1024x512_S1x1024x512_7_0_0 (W (Proc.devRef .tc main_arg0)) (W (Proc.devRef .tc main_arg1)) (W (Proc.devRef .tc main_arg2)) (W (Proc.devRef .tc main_arg3)) (W (Proc.devRef .tc main_arg4))) := by
  after_results_simp
  rfl
set_option maxHeartbeats 1000000 in
theorem e7_arg0 (W : Valuation τ sig (Elt F)) : after opsE7 W (Proc.devRef .tc main_arg0) = W (Proc.devRef .tc main_arg0) := by after_results_simp
set_option maxHeartbeats 1000000 in
theorem e7_arg1 (W : Valuation τ sig (Elt F)) : after opsE7 W (Proc.devRef .tc main_arg1) = W (Proc.devRef .tc main_arg1) := by after_results_simp
set_option maxHeartbeats 1000000 in
theorem e7_arg2 (W : Valuation τ sig (Elt F)) : after opsE7 W (Proc.devRef .tc main_arg2) = W (Proc.devRef .tc main_arg2) := by after_results_simp
set_option maxHeartbeats 1000000 in
theorem e7_arg3 (W : Valuation τ sig (Elt F)) : after opsE7 W (Proc.devRef .tc main_arg3) = W (Proc.devRef .tc main_arg3) := by after_results_simp
set_option maxHeartbeats 1000000 in
theorem e7_arg4 (W : Valuation τ sig (Elt F)) : after opsE7 W (Proc.devRef .tc main_arg4) = W (Proc.devRef .tc main_arg4) := by after_results_simp

/-! ## The whole list -/

/-- Zero plus the eight experts' shares, in the experts' order. -/
def result (X : FVec F S8192x1024 .f32) (TI : IVec S8192x2 32) (TW : FVec F S8192x2 .f32) (GU : FVec F S8x1024x1024 .f32)
    (DN : FVec F S8x1024x512 .f32) : FVec F S8192x1024 .f32 :=
  addf (addf (addf (addf (addf (addf (addf (addf (broadcastInDim S8192x1024 ![] bcast_S_S8192x1024 (constant S_ .f32 0x00000000#32) : FVec F S8192x1024 .f32) (term 0 slices_S8x1024x1024_S1x1024x1024_0_0_0 slices_S8x1024x512_S1x1024x512_0_0_0 X TI TW GU DN)) (term 1 slices_S8x1024x1024_S1x1024x1024_1_0_0 slices_S8x1024x512_S1x1024x512_1_0_0 X TI TW GU DN)) (term 2 slices_S8x1024x1024_S1x1024x1024_2_0_0 slices_S8x1024x512_S1x1024x512_2_0_0 X TI TW GU DN)) (term 3 slices_S8x1024x1024_S1x1024x1024_3_0_0 slices_S8x1024x512_S1x1024x512_3_0_0 X TI TW GU DN)) (term 4 slices_S8x1024x1024_S1x1024x1024_4_0_0 slices_S8x1024x512_S1x1024x512_4_0_0 X TI TW GU DN)) (term 5 slices_S8x1024x1024_S1x1024x1024_5_0_0 slices_S8x1024x512_S1x1024x512_5_0_0 X TI TW GU DN)) (term 6 slices_S8x1024x1024_S1x1024x1024_6_0_0 slices_S8x1024x512_S1x1024x512_6_0_0 X TI TW GU DN)) (term 7 slices_S8x1024x1024_S1x1024x1024_7_0_0 slices_S8x1024x512_S1x1024x512_7_0_0 X TI TW GU DN)

theorem ops_arg0 (V : Valuation τ sig (Elt F)) : after ops V (Proc.devRef .tc main_arg0) = V (Proc.devRef .tc main_arg0) := by
  simp only [ops, after_app]
  rw [e7_arg0, e6_arg0, e5_arg0, e4_arg0, e3_arg0, e2_arg0, e1_arg0, e0_arg0, init_arg0]
theorem ops_arg1 (V : Valuation τ sig (Elt F)) : after ops V (Proc.devRef .tc main_arg1) = V (Proc.devRef .tc main_arg1) := by
  simp only [ops, after_app]
  rw [e7_arg1, e6_arg1, e5_arg1, e4_arg1, e3_arg1, e2_arg1, e1_arg1, e0_arg1, init_arg1]
theorem ops_arg2 (V : Valuation τ sig (Elt F)) : after ops V (Proc.devRef .tc main_arg2) = V (Proc.devRef .tc main_arg2) := by
  simp only [ops, after_app]
  rw [e7_arg2, e6_arg2, e5_arg2, e4_arg2, e3_arg2, e2_arg2, e1_arg2, e0_arg2, init_arg2]
theorem ops_arg3 (V : Valuation τ sig (Elt F)) : after ops V (Proc.devRef .tc main_arg3) = V (Proc.devRef .tc main_arg3) := by
  simp only [ops, after_app]
  rw [e7_arg3, e6_arg3, e5_arg3, e4_arg3, e3_arg3, e2_arg3, e1_arg3, e0_arg3, init_arg3]
theorem ops_arg4 (V : Valuation τ sig (Elt F)) : after ops V (Proc.devRef .tc main_arg4) = V (Proc.devRef .tc main_arg4) := by
  simp only [ops, after_app]
  rw [e7_arg4, e6_arg4, e5_arg4, e4_arg4, e3_arg4, e2_arg4, e1_arg4, e0_arg4, init_arg4]

theorem ops_result (V : Valuation τ sig (Elt F)) :
    after ops V (Proc.devRef .tc main_v160) = result (V (Proc.devRef .tc main_arg0)) (V (Proc.devRef .tc main_arg1)) (V (Proc.devRef .tc main_arg2))
      (V (Proc.devRef .tc main_arg3)) (V (Proc.devRef .tc main_arg4)) := by
  simp only [ops, after_app]
  rw [e7_acc, e6_acc, e6_arg0, e6_arg1, e6_arg2, e6_arg3, e6_arg4, e5_acc, e5_arg0, e5_arg1, e5_arg2, e5_arg3, e5_arg4, e4_acc, e4_arg0, e4_arg1, e4_arg2, e4_arg3, e4_arg4, e3_acc, e3_arg0, e3_arg1, e3_arg2, e3_arg3, e3_arg4, e2_acc, e2_arg0, e2_arg1, e2_arg2, e2_arg3, e2_arg4, e1_acc, e1_arg0, e1_arg1, e1_arg2, e1_arg3, e1_arg4, e0_acc, e0_arg0, e0_arg1, e0_arg2, e0_arg3, e0_arg4, init_acc, init_arg0, init_arg1, init_arg2, init_arg3, init_arg4]
  rfl

/-- Every weakly fair execution of the reference terminates with its result array at zero plus the eight shares of the
    argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v160) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v160).trans (ops_result _),
      (h c main_arg0).trans (ops_arg0 _), (h c main_arg1).trans (ops_arg1 _), (h c main_arg2).trans (ops_arg2 _),
      (h c main_arg3).trans (ops_arg3 _), (h c main_arg4).trans (ops_arg4 _)⟩)
    (run_after m ρ)

/-! ## The result at an index -/

/-- At (r, d) the reference's result is the specification's output: zero plus the shares is their sum. -/
theorem result_apply (X : FVec Ideal S8192x1024 .f32) (TI : IVec S8192x2 32) (TW : FVec Ideal S8192x2 .f32) (GU : FVec Ideal S8x1024x1024 .f32)
    (DN : FVec Ideal S8x1024x512 .f32) (r : Fin 8192) (d : Fin 1024) :
    result X TI TW GU DN (ix2 r d) = MoESpec.out X TI TW GU DN r d := by
  unfold result MoESpec.out
  simp only [addf_apply]
  rw [term_apply 0 (by omega), term_apply 1 (by omega), term_apply 2 (by omega), term_apply 3 (by omega), term_apply 4 (by omega), term_apply 5 (by omega), term_apply 6 (by omega), term_apply 7 (by omega), Fin.sum_univ_eight]
  show Ideal.ofBits .f32 0x00000000#32 + _ + _ + _ + _ + _ + _ + _ + _ = _
  rw [Ideal.ofBits_zero_f32, zero_add]
  rfl

end Cert.ReferenceIdeal.RefValue

end
-- ==== Proof.lean ====
/-
  The kernel and the reference compute one function of the five argument arrays.

  Both programs add, expert by expert and from zero, the expert's share of the output: for token r and column d, the
  token's hidden row projected on the expert's gate-up matrix, the first 512 projections gated by x · σ(x) and multiplied
  by the last 512, the products projected on row d of the expert's down matrix, times the sum of the token's two slot
  weights where the slot names the expert. The kernel does it tile by tile, 512 tokens at a time, with the expert the
  inner grid axis and the output block carried from one expert to the next; the reference does it for all tokens at
  once, expert after expert. Over the extended reals the two contractions of a product are the same sum, a change of
  float format is the identity, the kernel's logistic is the reference's 1 / (1 + exp (−x)), and both sides add the eight
  shares in the same order, so the results agree index by index; no law that needs finite operands is used.

  The kernel's value is read off the generated fold of its output block over the eight points of a row tile; the
  reference's off the fold of its 266 host operations, window by window, one window per expert. The idealized program is
  the kernel's own text, so what it preserves is nothing to state.
-/
import proofs.«119025_j42511586295841_1_alg».proof.Defs
import proofs.«119025_j42511586295841_1_alg».proof.Proof.Gen.Kernel.Frame
import proofs.«119025_j42511586295841_1_alg».proof.Proof.Gen.Pre_finite_inputs
import proofs.«119025_j42511586295841_1_alg».proof.Proof.KernelValue
import proofs.«119025_j42511586295841_1_alg».proof.Proof.RefValue
import Idealize.ShloMosaic.Adequacy
import Idealize.ShloMosaic.Init

noncomputable section

namespace Cert.Proof

open Idealize.ShloMosaic Idealize.SL.Sem Idealize.ShloMosaic.ValueIdx

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.RefValue.run (F := Ideal) m ρ)

/-- From memories that agree on the arguments both programs end with the specification's output of those arguments in
    their result arrays. -/
theorem algebraic_KernelIdeal_ReferenceIdeal : algebraic_KernelIdeal_ReferenceIdeal := by
  intro m ρ m' ρ' _ hagree
  refine ⟨_, Cert.KernelIdeal.MoEValue.run m ρ, ?_⟩
  refine (θ_run Cert.ReferenceIdeal.defs _ _).mono (fun _ h c => ⟨(h c).1.trans ?_, (h c).2⟩)
    (Cert.ReferenceIdeal.RefValue.run (F := Ideal) m' ρ')
  have h0 := (hagree c).1
  have h1 := (hagree c).2.1
  have h2 := (hagree c).2.2.1
  have h3 := (hagree c).2.2.2.1
  have h4 := (hagree c).2.2.2.2
  funext i
  obtain ⟨a, b, rfl⟩ : ∃ (a : Fin 8192) (b : Fin 1024), i = ix2 a b := ⟨i 0, i 1, eq_ix2 i⟩
  refine (Cert.ReferenceIdeal.RefValue.result_apply _ _ _ _ _ a b).trans ?_
  rw [h0, h1, h2, h3, h4]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
